-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x128x256 : Shape := ⟨3, ![512, 128, 256]⟩
abbrev S32768x256 : Shape := ⟨2, ![32768, 256]⟩
abbrev S256 : Shape := ⟨1, ![256]⟩
abbrev S256x256 : Shape := ⟨2, ![256, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512x128x256 : S_.BroadcastsInDim S512x128x256 (![] : Fin 0 → Fin S512x128x256.rank)
  reducesTo_S512x128x256_S_d0_1_2 : S512x128x256.ReducesTo [0, 1, 2] S_
  bcast_S_S32768x256 : S_.BroadcastsInDim S32768x256 (![] : Fin 0 → Fin S32768x256.rank)
  reducesTo_S32768x256_S_d0_1 : S32768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S32768x256 .f32) (main_arg5 : FVec F S256 .f32) (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32768x256 .f32 := Host.absf main_arg4
  let main_cst_6 : FVec F S_ .f32 := constant S_ .f32 0x7F800000#32
  let main_v20 : FVec F S32768x256 .f32 := broadcastInDim S32768x256 ![] bcast_S_S32768x256 main_cst_6
  let main_v21 : IVec S32768x256 1 := cmpf .olt main_v19 main_v20
  let main_c_7 : IVec S_ 1 := constantI S_ 1 1#1
  let main_v22 : IVec S_ 1 := (fun x v => Host.reduce IntOp.andi x v reducesTo_S32768x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S512x256 .f32) (main_arg1 : FVec F S512x128x256 .f32) (main_arg2 : FVec F S32768x256 .f32) (main_arg3 : FVec F S256 .f32) (main_arg4 : FVec F S32768x256 .f32) (main_arg5 : FVec F S256 .f32) (main_arg6 : FVec F S256x256 .f32) (main_arg7 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x128x256 .f32 := Host.absf main_arg1
  let main_cst_0 : FVec F S_ .f32 := constant S_ .f32 0x7F800000#32
  let main_v5 : FVec F S512x128x256 .f32 := broadcastInDim S512x128x256 ![] bcast_S_S512x128x256 main_cst_0
  let main_v6 : IVec S512x128x256 1 := cmpf .olt main_v4 main_v5
  let main_c_1 : IVec S_ 1 := constantI S_ 1 1#1
  let main_v7 : IVec S_ 1 := (fun x v => Host.reduce IntOp.andi x v reducesTo_S512x128x256_S_d0_1_2 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S512x256 : Shape := ⟨2, ![512, 256]⟩
abbrev S512x128x256 : Shape := ⟨3, ![512, 128, 256]⟩
abbrev S32768x256 : Shape := ⟨2, ![32768, 256]⟩
abbrev S256 : Shape := ⟨1, ![256]⟩
abbrev S256x256 : Shape := ⟨2, ![256, 256]⟩
abbrev S512x1x256 : Shape := ⟨3, ![512, 1, 256]⟩
abbrev S512x127x256 : Shape := ⟨3, ![512, 127, 256]⟩
abbrev S512x32768 : Shape := ⟨2, ![512, 32768]⟩
abbrev S1x256 : Shape := ⟨2, ![1, 256]⟩
abbrev S256x4096 : Shape := ⟨2, ![256, 4096]⟩
abbrev S4096x256 : Shape := ⟨2, ![4096, 256]⟩

abbrev nBuf : Space → Nat
  | .hbm => 16
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x128x256, .f32⟩
  | .hbm, ⟨2, _⟩ => ⟨S32768x256, .f32⟩
  | .hbm, ⟨3, _⟩ => ⟨S256, .f32⟩
  | .hbm, ⟨4, _⟩ => ⟨S32768x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x1x256, .f32⟩
  | .hbm, ⟨9, _⟩ => ⟨S512x127x256, .f32⟩
  | .hbm, ⟨10, _⟩ => ⟨S512x128x256, .f32⟩
  | .hbm, ⟨11, _⟩ => ⟨S512x32768, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S512x256, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S512x256_S512x1x256_0_2 : S512x256.BroadcastsInDim S512x1x256 (![0, 2] : Fin 2 → Fin S512x1x256.rank)
  slices_S512x128x256_S512x127x256_0_0_0 : S512x128x256.Slices ![0, 0, 0] S512x127x256
  concatenates_S512x1x256_S512x127x256_S512x128x256_d1 : Shape.Concatenates [S512x1x256, S512x127x256] S512x128x256 1
  shapeCasts_S512x128x256_S512x32768 : S512x128x256.ShapeCasts S512x32768
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S512x32768.size a
  hwx0_0 : ∀ i : grid0.Coords, EltTy.bits .f32 = 32 ∨ (Rect.block (s := S512x32768) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S32768x256.size a
  hwx0_1 : ∀ i : grid0.Coords, EltTy.bits .f32 = 32 ∨ (Rect.block (s := S32768x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S32768x256.size a
  hwx0_2 : ∀ i : grid0.Coords, EltTy.bits .f32 = 32 ∨ (Rect.block (s := S32768x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S512x256.size a
  hwx0_7 : ∀ i : grid0.Coords, EltTy.bits .f32 = 32 ∨ (Rect.block (s := S512x256) S256x256.size (cc0_transform_7 i) (hinb0_7 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S512x256 : Shape := ⟨2, ![512, 256]⟩
abbrev S512x128x256 : Shape := ⟨3, ![512, 128, 256]⟩
abbrev S32768x256 : Shape := ⟨2, ![32768, 256]⟩
abbrev S256 : Shape := ⟨1, ![256]⟩
abbrev S256x256 : Shape := ⟨2, ![256, 256]⟩
abbrev S512x1x256 : Shape := ⟨3, ![512, 1, 256]⟩
abbrev S512x127x256 : Shape := ⟨3, ![512, 127, 256]⟩
abbrev S_ : Shape := ⟨0, ![]⟩
abbrev S1 : Shape := ⟨1, ![1]⟩
abbrev S512x32768 : Shape := ⟨2, ![512, 32768]⟩
abbrev S1x256 : Shape := ⟨2, ![1, 256]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x128x256, .f32⟩
  | .hbm, ⟨2, _⟩ => ⟨S32768x256, .f32⟩
  | .hbm, ⟨3, _⟩ => ⟨S256, .f32⟩
  | .hbm, ⟨4, _⟩ => ⟨S32768x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x1x256, .f32⟩
  | .hbm, ⟨9, _⟩ => ⟨S512x127x256, .f32⟩
  | .hbm, ⟨10, _⟩ => ⟨S512x128x256, .f32⟩
  | .hbm, ⟨11, _⟩ => ⟨S_, .i32⟩
  | .hbm, ⟨12, _⟩ => ⟨S1, .i32⟩
  | .hbm, ⟨13, _⟩ => ⟨S512x128x256, .f32⟩
  | .hbm, ⟨14, _⟩ => ⟨S512x32768, .f32⟩
  | .hbm, ⟨15, _⟩ => ⟨S512x256, .f32⟩
  | .hbm, ⟨16, _⟩ => ⟨S1x256, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S1x256, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S1x256, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  slices_S512x128x256_S512x1x256_0_127_0 : S512x128x256.Slices ![0, 127, 0] S512x1x256
  slices_S512x128x256_S512x127x256_0_0_0 : S512x128x256.Slices ![0, 0, 0] S512x127x256
  concatenates_S512x1x256_S512x127x256_S512x128x256_d1 : Shape.Concatenates [S512x1x256, S512x127x256] S512x128x256 1
  bcast_S_S1 : S_.BroadcastsInDim S1 (![] : Fin 0 → Fin S1.rank)
  shapeCasts_S512x128x256_S512x32768 : S512x128x256.ShapeCasts S512x32768
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  scatter_S512x128x256_S1_S512x256_01_1_1_0_wf : ScatterDims.WF S512x128x256 S1 S512x256 [0, 1] [1] [1] 0
  dot_S512x32768_S32768x256_S512x256_1_0_0_1_n_n_wf : DotDims.WF S512x32768 S32768x256 S512x256 [1] [0] [0] [1] [] []
  dot_S512x256_S256x256_S512x256_1_0_0_1_n_n_wf : DotDims.WF S512x256 S256x256 S512x256 [1] [0] [0] [1] [] []

variable [Facts₀]

def scatter_S512x128x256_S1_S512x256_01_1_1_0 : ScatterDims S512x128x256 S1 S512x256 where
  updateWindowDims := [0, 1]
  insertedWindowDims := [1]
  scatterDimsToOperandDims := [1]
  indexVectorDim := 0
  wf := scatter_S512x128x256_S1_S512x256_01_1_1_0_wf
def dot_S512x32768_S32768x256_S512x256_1_0_0_1_n_n : DotDims S512x32768 S32768x256 S512x256 where
  lhsContracting := [1]
  rhsContracting := [0]
  lhsNonContracting := [0]
  rhsNonContracting := [1]
  lhsBatch := []
  rhsBatch := []
  wf := dot_S512x32768_S32768x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

class Facts : Prop extends Facts₀ where

variable [Facts]
-- ==== Proof.KernelPieces.lean ====
import proofs.«170201_j40699110097066_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.GatedMlp.Pieces

open Cert.KernelIdeal Cert.KernelIdeal.Gen

variable {F : FTy → Type} [FloatOps F]

theorem hz : (![0, 0] : Fin 2 → Nat) = fun _ => 0 := funext fun a => by fin_cases a <;> rfl

/-- First point of a run, first accumulator: the buffer is reset to the zero block, the zero block is read back, and
    the update of the memory block `x0` against the weight block `x1` is stored over it. -/
theorem acc1_reset (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : cond0_0 i) (hc1 : ¬cond0_1 i)
    (x0 : Vec F S256x4096 .f32) (x1 : Vec F S4096x256 .f32) (x2 : Vec F S4096x256 .f32) (x3 : Vec F S1x256 .f32) (x4 : Vec F S1x256 .f32) (x5 : Vec F S256x256 .f32) (x6 : Vec F S1x256 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S256x256) hz, View.readCov_unit_zero (S := S256x256) _ hz]
  simp only [View.readAt_eq_ld, harg2.read_unread, harg3.read_unread,
    View.ld_unit_zero (S := S256x4096) hz, View.ld_unit_zero (S := S4096x256) hz]

/-- First point of a run, second accumulator: reset to the zero block, then the update of the memory block `x0`
    against the gate weight block `x2` over the zero block read back. -/
theorem accg_reset (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : cond0_0 i) (hc1 : ¬cond0_1 i)
    (x0 : Vec F S256x4096 .f32) (x1 : Vec F S4096x256 .f32) (x2 : Vec F S4096x256 .f32) (x3 : Vec F S1x256 .f32) (x4 : Vec F S1x256 .f32) (x5 : Vec F S256x256 .f32) (x6 : Vec F S1x256 .f32) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay5 x0 x2 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S256x256) hz, View.readCov_unit_zero (S := S256x256) _ hz]
  simp only [View.readAt_eq_ld, harg2.read_unread, harg4.read_unread,
    View.ld_unit_zero (S := S256x4096) hz, View.ld_unit_zero (S := S4096x256) hz]

/-- A middle point, first accumulator: what the point before left, `xs0`, updated by the memory block `x0` against
    the weight block `x1`. -/
theorem acc1_step (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : ¬cond0_1 i)
    (x0 : Vec F S256x4096 .f32) (x1 : Vec F S4096x256 .f32) (x2 : Vec F S4096x256 .f32) (x3 : Vec F S1x256 .f32) (x4 : Vec F S1x256 .f32) (x5 : Vec F S256x256 .f32) (x6 : Vec F S1x256 .f32) (xs0 : Vec F S256x256 .f32) (xs1 : Vec F S256x256 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz]
  simp only [View.readAt_eq_ld, harg2.read_unread, harg3.read_unread, harg10.read_unread,
    View.ld_unit_zero (S := S256x4096) hz, View.ld_unit_zero (S := S4096x256) hz,
    View.ld_unit_zero (S := S256x256) hz]

/-- A middle point, second accumulator: what the point before left, `xs1`, updated by the memory block `x0` against
    the gate weight block `x2`. -/
theorem accg_step (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : ¬cond0_1 i)
    (x0 : Vec F S256x4096 .f32) (x1 : Vec F S4096x256 .f32) (x2 : Vec F S4096x256 .f32) (x3 : Vec F S1x256 .f32) (x4 : Vec F S1x256 .f32) (x5 : Vec F S256x256 .f32) (x6 : Vec F S1x256 .f32) (xs0 : Vec F S256x256 .f32) (xs1 : Vec F S256x256 .f32) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay5 x0 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz]
  simp only [View.readAt_eq_ld, harg2.read_unread, harg4.read_unread, harg11.read_unread,
    View.ld_unit_zero (S := S256x4096) hz, View.ld_unit_zero (S := S4096x256) hz,
    View.ld_unit_zero (S := S256x256) hz]

/-- The last point of a run, the output block: both accumulators are updated first, then read back, and the output
    layer is computed from them with the biases `x3`, `x4`, the second weight `x5` and its bias `x6`. -/
theorem out_final (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i)
    (x0 : Vec F S256x4096 .f32) (x1 : Vec F S4096x256 .f32) (x2 : Vec F S4096x256 .f32) (x3 : Vec F S1x256 .f32) (x4 : Vec F S1x256 .f32) (x5 : Vec F S256x256 .f32) (x6 : Vec F S1x256 .f32) (xs0 : Vec F S256x256 .f32) (xs1 : Vec F S256x256 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 =
      k0_pay6 (k0_pay4 x0 x1 xs0) x3 (k0_pay5 x0 x2 xs1) x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg10.read_unread, harg11.read_unread,
    View.ld_unit_zero (S := S256x4096) hz, View.ld_unit_zero (S := S4096x256) hz,
    View.ld_unit_zero (S := S256x256) hz, View.ld_unit_zero (S := S1x256) hz,
    View.readCov_unit_zero (S := S256x256) _ hz]

end Cert.GatedMlp.Pieces

end
-- ==== Proof.KernelPayloads.lean ====
/-
  The kernel body's arithmetic, read at one entry, over the extended reals.

  One grid point holds a block of 256 rows of the flattened memory and 4096 of its 32768 positions.
  An accumulator update adds, at entry (r, n), the sum over the block's 4096 positions j of
  a (r, j) * w (j, n) to what the accumulator held (a change of float format is the identity here,
  and a product into a zero accumulator is the plain sum). The last point of a row block then forms
  tanh (acc1 + b1) * logistic (accg + bg), multiplies by the 256 by 256 second-layer matrix and adds b2.
-/
import proofs.«170201_j40699110097066_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.GatedMlp.Payloads

open Cert.KernelIdeal Cert.KernelIdeal.Gen Idealize.ShloMosaic Idealize.ShloMosaic.ValueIdx

/-! ## The two matrix products as plain sums

For a product with one contracted axis, the left operand is read at (row of the output, k) and the
right at (k, column of the output). -/

theorem lhs_wide_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_wide_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_wide_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_wide_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

theorem lhs_square_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_square_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_square_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_square_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- A block of 256 rows and 4096 positions against 4096 rows of a weight matrix, into zero: the sum over the 4096 positions. -/
theorem wide_product_apply (a : FVec Ideal S256x4096 .bf16) (w : FVec Ideal S4096x256 .bf16) (r n : Fin 256) :
    matmul dot_S256x4096_S4096x256_S256x256_1_0_0_1_n_n none a w (constant (F := Ideal) S256x256 .f32 0x00000000#32) (ix2 r n)
      = ∑ j : Fin 4096, a (ix2 r j) * w (ix2 j n) := by
  simp only [matmul]
  rw [Ideal.matmul_constant_zero_apply, ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 r n) ((contrEquiv1 dot_S256x4096_S4096x256_S256x256_1_0_0_1_n_n 4096 rfl rfl).symm k) = ix2 r k := funext fun a => Fin.ext (by
    match a with
    | ⟨0, _⟩ => exact lhs_wide_0 _ _
    | ⟨1, _⟩ => exact (lhs_wide_1 _ _).trans hk)
  have er : dot_S256x4096_S4096x256_S256x256_1_0_0_1_n_n.rhsIdx (ix2 r n) ((contrEquiv1 dot_S256x4096_S4096x256_S256x256_1_0_0_1_n_n 4096 rfl rfl).symm k) = ix2 k n := funext fun a => Fin.ext (by
    match a with
    | ⟨0, _⟩ => exact (rhs_wide_0 _ _).trans hk
    | ⟨1, _⟩ => exact rhs_wide_1 _ _)
  rw [el, er]

/-- The hidden block against the second-layer matrix, into zero: the sum over the 256 hidden units. -/
theorem square_product_apply (a : FVec Ideal S256x256 .bf16) (w : FVec Ideal S256x256 .bf16) (r n : Fin 256) :
    matmul dot_S256x256_S256x256_S256x256_1_0_0_1_n_n none a w (constant (F := Ideal) S256x256 .f32 0x00000000#32) (ix2 r n)
      = ∑ j : Fin 256, a (ix2 r j) * w (ix2 j n) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 r n) ((contrEquiv1 dot_S256x256_S256x256_S256x256_1_0_0_1_n_n 256 rfl rfl).symm k) = ix2 r k := funext fun a => Fin.ext (by
    match a with
    | ⟨0, _⟩ => exact lhs_square_0 _ _
    | ⟨1, _⟩ => exact (lhs_square_1 _ _).trans hk)
  have er : dot_S256x256_S256x256_S256x256_1_0_0_1_n_n.rhsIdx (ix2 r n) ((contrEquiv1 dot_S256x256_S256x256_S256x256_1_0_0_1_n_n 256 rfl rfl).symm k) = ix2 k n := funext fun a => Fin.ext (by
    match a with
    | ⟨0, _⟩ => exact (rhs_square_0 _ _).trans hk
    | ⟨1, _⟩ => exact rhs_square_1 _ _)
  rw [el, er]

/-! ## A bias row repeated over the 256 rows -/

/-- A one-row array broadcast over 256 rows reads its own entry of the same column. -/
theorem bias_rows_apply {α : Type} (v : S1x256.Idx → α) (h : S1x256.Broadcasts S256x256) (r n : Fin 256) :
    broadcastTo S256x256 v h (ix2 r n) = v (ix2 (0 : Fin 1) n) :=
  broadcastTo_apply v h (ix2 r n) (ix2 (0 : Fin 1) n) (fun a => by
    match a with
    | ⟨0, _⟩ => rfl
    | ⟨1, _⟩ => rfl)

/-! ## The payloads at an entry -/

/-- The reset stores zero. -/
theorem reset_apply (j : S256x256.Idx) : k0_pay1 (F := Ideal) j = 0 := by
  unfold k0_pay1
  simp only [shapeCast_self]
  show Ideal.ofBits .f32 0x00000000#32 = 0
  exact Ideal.ofBits_zero_f32

theorem reset_eq : k0_pay2 (F := Ideal) = k0_pay1 (F := Ideal) := rfl

/-- The first accumulator's update at (r, n): what it held plus the block's 4096 products. -/
theorem acc1_update_apply (x0 : Vec Ideal S256x4096 .f32) (x1 : Vec Ideal S4096x256 .f32) (acc : Vec Ideal S256x256 .f32)
    (r n : Fin 256) :
    k0_pay4 (F := Ideal) x0 x1 acc (ix2 r n) = acc (ix2 r n) + ∑ j : Fin 4096, x0 (ix2 r j) * x1 (ix2 j n) := by
  unfold k0_pay4 k0_pay3
  simp only [shapeCast_self]
  rw [addf_apply, wide_product_apply]
  rfl

/-- The gate accumulator's update at (r, n): the same with the gate's weight block. -/
theorem accg_update_apply (x0 : Vec Ideal S256x4096 .f32) (x2 : Vec Ideal S4096x256 .f32) (acc : Vec Ideal S256x256 .f32)
    (r n : Fin 256) :
    k0_pay5 (F := Ideal) x0 x2 acc (ix2 r n) = acc (ix2 r n) + ∑ j : Fin 4096, x0 (ix2 r j) * x2 (ix2 j n) := by
  unfold k0_pay5 k0_pay3
  simp only [shapeCast_self]
  rw [addf_apply, wide_product_apply]
  rfl

/-- The output block at (r, c): the gated hidden row r against column c of the second-layer matrix, plus b2 at c. -/
theorem out_block_apply (a1 : Vec Ideal S256x256 .f32) (b1 : Vec Ideal S1x256 .f32) (ag : Vec Ideal S256x256 .f32)
    (bg : Vec Ideal S1x256 .f32) (w2 : Vec Ideal S256x256 .f32) (b2 : Vec Ideal S1x256 .f32) (r c : Fin 256) :
    k0_pay6 (F := Ideal) a1 b1 ag bg w2 b2 (ix2 r c)
      = (∑ n : Fin 256, (Ideal.tanh (a1 (ix2 r n) + b1 (ix2 (0 : Fin 1) n))
            * Ideal.logistic (ag (ix2 r n) + bg (ix2 (0 : Fin 1) n))) * w2 (ix2 n c))
          + b2 (ix2 (0 : Fin 1) c) := by
  unfold k0_pay6
  simp only [shapeCast_self]
  rw [addf_apply, square_product_apply, bias_rows_apply]
  refine congrArg (· + b2 (ix2 (0 : Fin 1) c)) (Finset.sum_congr rfl fun n _ => ?_)
  show (Ideal.tanh (a1 (ix2 r n) + broadcastTo S256x256 b1 _ (ix2 r n))
      * Ideal.logistic (ag (ix2 r n) + broadcastTo S256x256 bg _ (ix2 r n))) * w2 (ix2 n c) = _
  rw [bias_rows_apply, bias_rows_apply]

end Cert.GatedMlp.Payloads

end
-- ==== Proof.KernelBlocks.lean ====
/-
  What the kernel region finds in the arrays it stages, and each window's block at a grid point
  read at one entry.

  The grid has 2 x 8 points; point t is row block t / 8 and contraction block t % 8. The flattened
  memory's block at t is rows 256 (t / 8) … + 255 and positions 4096 (t % 8) … + 4095; a weight
  matrix's block is rows 4096 (t % 8) … + 4095; the three biases and the second-layer matrix are
  staged whole; the output's block is rows 256 (t / 8) … + 255.
-/
import proofs.«170201_j40699110097066_1_alg».proof.Proof.Gen.KernelIdeal.Frame
import Idealize.ShloMosaic.Lib.ValueIdx
import Idealize.ShloMosaic.Lib.Pipeline.Value
import Idealize.ShloMosaic.Lib.StableHlo.Run

noncomputable section

namespace Cert.GatedMlp.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## The staged arrays as the region finds them -/

/-- The flattened memory: the new row joined before the first 127 old slots, flattened. -/
theorem flat_found (c : Dev nD) :
    (V m c main_v3 : S512x32768.Idx → EReal)
      = shapeCast S512x32768
          (concatenate S512x128x256 1
            [⟨S512x1x256, broadcastInDim S512x1x256 ![0, 2] bcast_S512x256_S512x1x256_0_2 (m ((c : Thread nD τ).loc main_arg0))⟩,
             ⟨S512x127x256, extractStridedSlice S512x127x256 ![0, 0, 0] (m ((c : Thread nD τ).loc main_arg1)) slices_S512x128x256_S512x127x256_0_0_0⟩]
            concatenates_S512x1x256_S512x127x256_S512x128x256_d1)
          shapeCasts_S512x128x256_S512x32768 := by
  dsimp only [V, hostOps0]; after_results; rfl

/-- The three biases, each as one row of 256. -/
theorem b1_found (c : Dev nD) :
    (V m c main_v4 : S1x256.Idx → EReal) = shapeCast S1x256 (m ((c : Thread nD τ).loc main_arg3)) shapeCasts_S256_S1x256 := by
  dsimp only [V, hostOps0]; after_results; rfl
theorem bg_found (c : Dev nD) :
    (V m c main_v5 : S1x256.Idx → EReal) = shapeCast S1x256 (m ((c : Thread nD τ).loc main_arg5)) shapeCasts_S256_S1x256 := by
  dsimp only [V, hostOps0]; after_results; rfl
theorem b2_found (c : Dev nD) :
    (V m c main_v6 : S1x256.Idx → EReal) = shapeCast S1x256 (m ((c : Thread nD τ).loc main_arg7)) shapeCasts_S256_S1x256 := by
  dsimp only [V, hostOps0]; after_results; rfl

/-- A bias as one row reads the bias at the column. -/
theorem bias_row_apply (b : S256.Idx → EReal) (n : Fin 256) :
    shapeCast S1x256 b shapeCasts_S256_S1x256 (ix2 (0 : Fin 1) n) = b (ix1 n) :=
  shapeCast_apply b shapeCasts_S256_S1x256 (ix2 (0 : Fin 1) n) (ix1 n) (by
    rw [Shape.rowMajor_val_one, Shape.rowMajor_val_two]
    show n.val = (0 : Fin 1).val * 256 + n.val
    simp)

/-! ## The index maps over the grid, decided once -/

theorem N16 : cfg0.N = 16 := N_0

theorem index_flat : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index_w1 : ∀ t : Fin cfg0.N, win0_1.index t 0 = t.val % 8 ∧ win0_1.index t 1 = 0 :=
  (by decide +kernel : ∀ t : Fin grid0.N, win0_1.index t 0 = t.val % 8 ∧ win0_1.index t 1 = 0)
theorem index_wg : ∀ t : Fin cfg0.N, win0_2.index t 0 = t.val % 8 ∧ win0_2.index t 1 = 0 :=
  (by decide +kernel : ∀ t : Fin grid0.N, win0_2.index t 0 = t.val % 8 ∧ win0_2.index t 1 = 0)
theorem index_b1 : ∀ t : Fin cfg0.N, win0_3.index t 0 = 0 ∧ win0_3.index t 1 = 0 :=
  (by decide +kernel : ∀ t : Fin grid0.N, win0_3.index t 0 = 0 ∧ win0_3.index t 1 = 0)
theorem index_bg : ∀ t : Fin cfg0.N, win0_4.index t 0 = 0 ∧ win0_4.index t 1 = 0 :=
  (by decide +kernel : ∀ t : Fin grid0.N, win0_4.index t 0 = 0 ∧ win0_4.index t 1 = 0)
theorem index_w2 : ∀ t : Fin cfg0.N, win0_5.index t 0 = 0 ∧ win0_5.index t 1 = 0 :=
  (by decide +kernel : ∀ t : Fin grid0.N, win0_5.index t 0 = 0 ∧ win0_5.index t 1 = 0)
theorem index_b2 : ∀ t : Fin cfg0.N, win0_6.index t 0 = 0 ∧ win0_6.index t 1 = 0 :=
  (by decide +kernel : ∀ t : Fin grid0.N, win0_6.index t 0 = 0 ∧ win0_6.index t 1 = 0)
theorem index_out : ∀ t : Fin cfg0.N, win0_7.index t 0 = t.val / 8 ∧ win0_7.index t 1 = 0 :=
  (by decide +kernel : ∀ t : Fin grid0.N, win0_7.index t 0 = t.val / 8 ∧ win0_7.index t 1 = 0)

/-! ## The blocks at an entry -/

/-- The flattened memory's block at point t, entry (r, j): row 256 (t / 8) + r, position 4096 (t % 8) + j. -/
theorem flat_block_apply (c : Dev nD) (t : Fin cfg0.N) (r : Fin 256) (j : Fin 4096) :
    (iblk m c 0 t : Vec Ideal S256x4096 .f32) (ix2 r j)
      = V m c main_v3 (ix2 (⟨256 * (t.val / 8) + r.val, by have := t.isLt; have := N16; omega⟩ : Fin 512)
          (⟨4096 * (t.val % 8) + j.val, by have := Nat.mod_lt t.val (show 0 < 8 by norm_num); omega⟩ : Fin 32768)) := by
  unfold iblk
  rw [View.read_apply]
  show V m c main_v3 _ = V m c main_v3 _
  congr 1
  funext a
  apply Fin.ext
  match a with
  | ⟨0, _⟩ => show win0_0.index t 0 * 256 + 1 * r.val = 256 * (t.val / 8) + r.val; rw [(index_flat t).1]; omega
  | ⟨1, _⟩ => show win0_0.index t 1 * 4096 + 1 * j.val = 4096 * (t.val % 8) + j.val; rw [(index_flat t).2]; omega

/-- The first weight matrix's block at point t, entry (j, n): row 4096 (t % 8) + j, column n. -/
theorem w1_block_apply (c : Dev nD) (t : Fin cfg0.N) (j : Fin 4096) (n : Fin 256) :
    (iblk m c 1 t : Vec Ideal S4096x256 .f32) (ix2 j n)
      = V m c main_arg2 (ix2 (⟨4096 * (t.val % 8) + j.val, by have := Nat.mod_lt t.val (show 0 < 8 by norm_num); omega⟩ : Fin 32768) n) := by
  unfold iblk
  rw [View.read_apply]
  show V m c main_arg2 _ = V m c main_arg2 _
  congr 1
  funext a
  apply Fin.ext
  match a with
  | ⟨0, _⟩ => show win0_1.index t 0 * 4096 + 1 * j.val = 4096 * (t.val % 8) + j.val; rw [(index_w1 t).1]; omega
  | ⟨1, _⟩ => show win0_1.index t 1 * 256 + 1 * n.val = n.val; rw [(index_w1 t).2]; omega

/-- The gate's weight matrix's block at point t, entry (j, n): the same rows. -/
theorem wg_block_apply (c : Dev nD) (t : Fin cfg0.N) (j : Fin 4096) (n : Fin 256) :
    (iblk m c 2 t : Vec Ideal S4096x256 .f32) (ix2 j n)
      = V m c main_arg4 (ix2 (⟨4096 * (t.val % 8) + j.val, by have := Nat.mod_lt t.val (show 0 < 8 by norm_num); omega⟩ : Fin 32768) n) := by
  unfold iblk
  rw [View.read_apply]
  show V m c main_arg4 _ = V m c main_arg4 _
  congr 1
  funext a
  apply Fin.ext
  match a with
  | ⟨0, _⟩ => show win0_2.index t 0 * 4096 + 1 * j.val = 4096 * (t.val % 8) + j.val; rw [(index_wg t).1]; omega
  | ⟨1, _⟩ => show win0_2.index t 1 * 256 + 1 * n.val = n.val; rw [(index_wg t).2]; omega

/-- A whole-array window of one row: the block is the array. -/
theorem b1_block_apply (c : Dev nD) (t : Fin cfg0.N) (n : Fin 256) :
    (iblk m c 3 t : Vec Ideal S1x256 .f32) (ix2 (0 : Fin 1) n) = V m c main_v4 (ix2 (0 : Fin 1) n) := by
  unfold iblk
  rw [View.read_apply]
  show V m c main_v4 _ = V m c main_v4 _
  congr 1
  funext a
  apply Fin.ext
  match a with
  | ⟨0, _⟩ => show win0_3.index t 0 * 1 + 1 * 0 = 0; rw [(index_b1 t).1]
  | ⟨1, _⟩ => show win0_3.index t 1 * 256 + 1 * n.val = n.val; rw [(index_b1 t).2]; omega
theorem bg_block_apply (c : Dev nD) (t : Fin cfg0.N) (n : Fin 256) :
    (iblk m c 4 t : Vec Ideal S1x256 .f32) (ix2 (0 : Fin 1) n) = V m c main_v5 (ix2 (0 : Fin 1) n) := by
  unfold iblk
  rw [View.read_apply]
  show V m c main_v5 _ = V m c main_v5 _
  congr 1
  funext a
  apply Fin.ext
  match a with
  | ⟨0, _⟩ => show win0_4.index t 0 * 1 + 1 * 0 = 0; rw [(index_bg t).1]
  | ⟨1, _⟩ => show win0_4.index t 1 * 256 + 1 * n.val = n.val; rw [(index_bg t).2]; omega
theorem b2_block_apply (c : Dev nD) (t : Fin cfg0.N) (n : Fin 256) :
    (iblk m c 6 t : Vec Ideal S1x256 .f32) (ix2 (0 : Fin 1) n) = V m c main_v6 (ix2 (0 : Fin 1) n) := by
  unfold iblk
  rw [View.read_apply]
  show V m c main_v6 _ = V m c main_v6 _
  congr 1
  funext a
  apply Fin.ext
  match a with
  | ⟨0, _⟩ => show win0_6.index t 0 * 1 + 1 * 0 = 0; rw [(index_b2 t).1]
  | ⟨1, _⟩ => show win0_6.index t 1 * 256 + 1 * n.val = n.val; rw [(index_b2 t).2]; omega

/-- The second-layer matrix is staged whole. -/
theorem w2_block_apply (c : Dev nD) (t : Fin cfg0.N) (n c' : Fin 256) :
    (iblk m c 5 t : Vec Ideal S256x256 .f32) (ix2 n c') = V m c main_arg6 (ix2 n c') := by
  unfold iblk
  rw [View.read_apply]
  show V m c main_arg6 _ = V m c main_arg6 _
  congr 1
  funext a
  apply Fin.ext
  match a with
  | ⟨0, _⟩ => show win0_5.index t 0 * 256 + 1 * n.val = n.val; rw [(index_w2 t).1]; omega
  | ⟨1, _⟩ => show win0_5.index t 1 * 256 + 1 * c'.val = c'.val; rw [(index_w2 t).2]; omega

end Cert.GatedMlp.Blocks

end
-- ==== Proof.RingUpdate.lean ====
/-
  The ring-buffer update both programs begin with, as one function of the two arrays it reads.
  The memory holds, for each of 512 rows, 128 slots of 256 values. The update writes the new
  row `x` into slot 0 and moves every old slot one place up: slot `s + 1` of the result is the old
  slot `s`, and the old last slot is dropped.
-/
import Idealize.ShloMosaic.PureOps.Ideal
import Idealize.ShloMosaic.Lib.ValueIdx

noncomputable section

namespace Cert.GatedMlp

open Idealize.ShloMosaic Idealize.ShloMosaic.ValueIdx

/-- The shape of the new rows: 512 rows of 256 values. -/
abbrev SRow : Shape := ⟨2, ![512, 256]⟩
/-- The shape of the memory: 512 rows, 128 slots, 256 values. -/
abbrev SRing : Shape := ⟨3, ![512, 128, 256]⟩

/-- The updated memory: slot 0 of row `b` is `x b`, slot `s + 1` is the old slot `s`. -/
def ringUpdate {α : Type*} (x : SRow.Idx → α) (mem : SRing.Idx → α) : SRing.Idx → α := fun i =>
  if (i 1).val = 0 then
    x (ix2 (⟨(i 0).val, (i 0).isLt⟩ : Fin 512) (⟨(i 2).val, (i 2).isLt⟩ : Fin 256))
  else
    mem (ix3 (⟨(i 0).val, (i 0).isLt⟩ : Fin 512)
      (⟨(i 1).val - 1, by have h : (i 1).val < 128 := (i 1).isLt; omega⟩ : Fin 128)
      (⟨(i 2).val, (i 2).isLt⟩ : Fin 256))

theorem ringUpdate_slot_zero {α : Type*} (x : SRow.Idx → α) (mem : SRing.Idx → α) (i : SRing.Idx)
    (h : (i 1).val = 0) :
    ringUpdate x mem i = x (ix2 (⟨(i 0).val, (i 0).isLt⟩ : Fin 512) (⟨(i 2).val, (i 2).isLt⟩ : Fin 256)) := by
  unfold ringUpdate; rw [if_pos h]

theorem ringUpdate_slot_succ {α : Type*} (x : SRow.Idx → α) (mem : SRing.Idx → α) (i : SRing.Idx)
    (h : (i 1).val ≠ 0) :
    ringUpdate x mem i = mem (ix3 (⟨(i 0).val, (i 0).isLt⟩ : Fin 512)
      (⟨(i 1).val - 1, by have h : (i 1).val < 128 := (i 1).isLt; omega⟩ : Fin 128)
      (⟨(i 2).val, (i 2).isLt⟩ : Fin 256)) := by
  unfold ringUpdate; rw [if_neg h]

end Cert.GatedMlp

end
-- ==== Proof.GatedSpec.lean ====
/-
  The result both programs compute, as one function of the eight argument arrays, index by index,
  over the extended reals.

  With `flat` the updated memory flattened to 512 rows of 32768 values (row `b`, position
  `256 s + v` is slot `s`, value `v`):

    pre W b (r, n)   = (sum over k < 32768 of flat (r, k) * W (k, n)) + b n
    hidden (r, n)    = tanh (pre W1 b1 (r, n)) * logistic (pre Wg bg (r, n))
    result (r, c)    = (sum over n < 256 of hidden (r, n) * W2 (n, c)) + b2 c

  The only law used between the two programs is that a sum over 32768 positions is the sum over its
  eight consecutive blocks of 4096 positions: addition of extended reals is commutative and
  associative, so no finiteness is needed.
-/
import Idealize.ShloMosaic.PureOps.Ideal
import Idealize.ShloMosaic.Lib.ValueIdx
import proofs.«170201_j40699110097066_1_alg».proof.Proof.RingUpdate

noncomputable section

open scoped BigOperators

namespace Cert.GatedMlp

open Idealize.ShloMosaic Idealize.ShloMosaic.ValueIdx

/-- The flattened memory: 512 rows of 128 * 256 values. -/
abbrev SFlat : Shape := ⟨2, ![512, 32768]⟩
/-- A first-layer weight matrix: 32768 by 256. -/
abbrev SWide : Shape := ⟨2, ![32768, 256]⟩
/-- A bias: 256 values. -/
abbrev SBias : Shape := ⟨1, ![256]⟩
/-- The second-layer weight matrix: 256 by 256. -/
abbrev SSquare : Shape := ⟨2, ![256, 256]⟩

/-- One pre-activation: row `r` of `flat` against column `n` of `W`, plus the bias at `n`. -/
def pre (flat : SFlat.Idx → EReal) (W : SWide.Idx → EReal) (b : SBias.Idx → EReal) : SRow.Idx → EReal := fun i =>
  (∑ k : Fin 32768, flat (ix2 (⟨(i 0).val, (i 0).isLt⟩ : Fin 512) k) * W (ix2 k (⟨(i 1).val, (i 1).isLt⟩ : Fin 256)))
    + b (ix1 (⟨(i 1).val, (i 1).isLt⟩ : Fin 256))

/-- The gated hidden layer: the tanh branch times the logistic gate. -/
def hidden (flat : SFlat.Idx → EReal) (W1 : SWide.Idx → EReal) (b1 : SBias.Idx → EReal)
    (Wg : SWide.Idx → EReal) (bg : SBias.Idx → EReal) : SRow.Idx → EReal := fun i =>
  Ideal.tanh (pre flat W1 b1 i) * Ideal.logistic (pre flat Wg bg i)

/-- The output layer: row `r` of the hidden layer against column `c` of `W2`, plus the bias at `c`. -/
def outLayer (h : SRow.Idx → EReal) (W2 : SSquare.Idx → EReal) (b2 : SBias.Idx → EReal) : SRow.Idx → EReal := fun i =>
  (∑ n : Fin 256, h (ix2 (⟨(i 0).val, (i 0).isLt⟩ : Fin 512) n) * W2 (ix2 n (⟨(i 1).val, (i 1).isLt⟩ : Fin 256)))
    + b2 (ix1 (⟨(i 1).val, (i 1).isLt⟩ : Fin 256))

/-- The whole result, from the flattened updated memory. -/
def resultOfFlat (flat : SFlat.Idx → EReal) (W1 : SWide.Idx → EReal) (b1 : SBias.Idx → EReal)
    (Wg : SWide.Idx → EReal) (bg : SBias.Idx → EReal) (W2 : SSquare.Idx → EReal) (b2 : SBias.Idx → EReal) :
    SRow.Idx → EReal :=
  outLayer (hidden flat W1 b1 Wg bg) W2 b2

/-- The whole result, from the arguments: the ring update, flattened, then the three layers. -/
def G (hflat : SRing.ShapeCasts SFlat) (x : SRow.Idx → EReal) (mem : SRing.Idx → EReal)
    (W1 : SWide.Idx → EReal) (b1 : SBias.Idx → EReal) (Wg : SWide.Idx → EReal) (bg : SBias.Idx → EReal)
    (W2 : SSquare.Idx → EReal) (b2 : SBias.Idx → EReal) : SRow.Idx → EReal :=
  resultOfFlat (shapeCast SFlat (ringUpdate x mem) hflat) W1 b1 Wg bg W2 b2

/-! ## A sum over 32768 positions, by blocks of 4096 -/

/-- Block `s` (taken modulo 8) of a sum over 32768 positions: positions `4096 s … 4096 s + 4095`. -/
def blockSum {M : Type*} [AddCommMonoid M] (f : Fin 32768 → M) (s : ℕ) : M :=
  ∑ j : Fin 4096, f ⟨4096 * (s % 8) + j.val, by have := j.isLt; have := Nat.mod_lt s (show 0 < 8 by norm_num); omega⟩

/-- The eight blocks make up the whole sum. -/
theorem sum_blockSum {M : Type*} [AddCommMonoid M] (f : Fin 32768 → M) :
    ∑ s ∈ Finset.range 8, blockSum f s = ∑ k : Fin 32768, f k := by
  rw [← Fin.sum_univ_eq_sum_range (fun s => blockSum f s) 8]
  unfold blockSum
  rw [← Fintype.sum_prod_type']
  refine Fintype.sum_equiv (finProdFinEquiv (m := 8) (n := 4096)) _ _ (fun p => ?_)
  refine congrArg f (Fin.ext ?_)
  have h8 : p.1.val % 8 = p.1.val := Nat.mod_eq_of_lt p.1.isLt
  show 4096 * (p.1.val % 8) + p.2.val = p.2.val + 4096 * p.1.val
  rw [h8]; omega

end Cert.GatedMlp

end
-- ==== Proof.KernelAccumulate.lean ====
/-
  The two accumulators of the kernel, point by point.

  Along a run of eight grid points (one row block, the eight blocks of the contraction) the first
  point stores zero into both accumulators and adds its block's products; each later point adds its
  block's products to what the point before left. So after the point before the run's last the first
  accumulator holds, at entry (r, n), zero plus the sum over the first seven blocks s of
  sum over j < 4096 of flat (256 q + r, 4096 s + j) * W1 (4096 s + j, n), and the gate accumulator
  the same with the gate's weights.
-/
import proofs.«170201_j40699110097066_1_alg».proof.Proof.Gen.KernelIdeal.Value
import proofs.«170201_j40699110097066_1_alg».proof.Proof.KernelPieces
import proofs.«170201_j40699110097066_1_alg».proof.Proof.KernelPayloads
import proofs.«170201_j40699110097066_1_alg».proof.Proof.KernelBlocks
import proofs.«170201_j40699110097066_1_alg».proof.Proof.GatedSpec

noncomputable section

open scoped BigOperators

namespace Cert.GatedMlp.Accumulate

open Cert.KernelIdeal Cert.KernelIdeal.Gen Cert.KernelIdeal.Value Idealize.ShloMosaic Idealize.ShloMosaic.TcCoe
open Idealize.ShloMosaic.ValueIdx Idealize.SL.Sem Cert.GatedMlp

variable (m : (ℓ : Loc nD τ sig) → Buf (Elt Ideal) ℓ)

/-- The three blocks a point multiplies, each at its literal shape: 256 rows by 4096 positions of the
    flattened memory, and 4096 rows by 256 columns of each first-layer weight matrix. -/
abbrev flatBlk (c : Dev nD) (t : Fin cfg0.N) : Vec Ideal S256x4096 .f32 := iblk m c 0 t
abbrev w1Blk (c : Dev nD) (t : Fin cfg0.N) : Vec Ideal S4096x256 .f32 := iblk m c 1 t
abbrev wgBlk (c : Dev nD) (t : Fin cfg0.N) : Vec Ideal S4096x256 .f32 := iblk m c 2 t

/-- Point n's addend at entry i = (r, c) of a 256 by 256 accumulator: block n % 8 of the contraction,
    for row 256 (n / 8) + r of the flattened memory against column c of the weights. -/
def addend (flat : S512x32768.Idx → EReal) (W : S32768x256.Idx → EReal) (n : ℕ) (i : S256x256.Idx) : EReal :=
  blockSum (fun k => flat (ix2 (⟨256 * ((n / 8) % 2) + (i 0).val, by
        have h : (i 0).val < 256 := (i 0).isLt
        have := Nat.mod_lt (n / 8) (show 0 < 2 by norm_num)
        omega⟩ : Fin 512) k)
      * W (ix2 k (⟨(i 1).val, (i 1).isLt⟩ : Fin 256))) n

/-- The products of point t's blocks at entry (r, n) are point t's addend: the flattened memory's block against the first weight matrix's block. -/
theorem block_products_acc1 (c : Dev nD) (t : Fin cfg0.N) (r n : Fin 256) :
    ∑ j : Fin 4096, flatBlk m c t (ix2 r j) * w1Blk m c t (ix2 j n)
      = addend (V m c main_v3) (V m c main_arg2) t.val (ix2 r n) := by
  unfold addend blockSum
  refine Finset.sum_congr rfl fun j _ => ?_
  unfold flatBlk w1Blk
  rw [Blocks.flat_block_apply, Blocks.w1_block_apply]
  have hq : (t.val / 8) % 2 = t.val / 8 :=
    Nat.mod_eq_of_lt (by have := t.isLt; have := Blocks.N16; omega)
  refine congrArg₂ (· * ·) (congrArg (V m c main_v3) ?_) (congrArg (V m c main_arg2) ?_)
  · funext a
    apply Fin.ext
    match a with
    | ⟨0, _⟩ => show 256 * (t.val / 8) + r.val = 256 * ((t.val / 8) % 2) + r.val; rw [hq]
    | ⟨1, _⟩ => rfl
  · funext a
    apply Fin.ext
    match a with
    | ⟨0, _⟩ => rfl
    | ⟨1, _⟩ => rfl

/-- The first accumulator after j further points of the run that starts at point 8 q (j at most 6): zero plus the
    addends of points 8 q … 8 q + j. The first point resets to zero and adds its block; each later one adds its block. -/
theorem acc1_fold (c : Dev nD) (q j : ℕ) (hj : j ≤ 6) (h : 8 * q + j < cfg0.N) (i : S256x256.Idx) :
    Pipeline.accAt (fun n h => scAt0_0 m c n h (VS0_0.read (Elt Ideal) VS0_0.junk)) (scAt0_0 m c) (8 * q) j h i
      = (0 : EReal) + ∑ s ∈ Finset.range (j + 1), addend (V m c main_v3) (V m c main_arg2) (8 * q + s) i := by
  refine Pipeline.accAt_add_apply (ι := S256x256.Idx) (β := EReal)
    (fun n h => scAt0_0 m c n h (VS0_0.read (Elt Ideal) VS0_0.junk)) (scAt0_0 m c) (fun _ => 0)
    (addend (V m c main_v3) (V m c main_arg2)) (8 * q) 6 ?_ ?_ j hj h i
  · intro hb i
    have h0 : (8 * q) % 8 = 0 := Nat.mul_mod_right 8 q
    have h1 : ¬(8 * q) % 8 = 7 := by omega
    obtain ⟨r, n', rfl⟩ : ∃ (r n' : Fin 256), i = ix2 r n' := ⟨i 0, i 1, eq_ix2 i⟩
    show scAt0_0 m c (8 * q) hb (VS0_0.read (Elt Ideal) VS0_0.junk) (ix2 r n') = _
    unfold scAt0_0
    rw [dif_pos h0, dif_neg h1]
    refine (congrFun (Pieces.acc1_reset (F := Ideal) c (grid0.coords (⟨8 * q, hb⟩ : Fin cfg0.N)) (ms0_0 (⟨8 * q, hb⟩ : Fin cfg0.N)) (hs0_0 (⟨8 * q, hb⟩ : Fin cfg0.N)) (ms0_1 (⟨8 * q, hb⟩ : Fin cfg0.N)) (hs0_1 (⟨8 * q, hb⟩ : Fin cfg0.N)) (ms0_2 (⟨8 * q, hb⟩ : Fin cfg0.N)) (hs0_2 (⟨8 * q, hb⟩ : Fin cfg0.N)) (ms0_3 (⟨8 * q, hb⟩ : Fin cfg0.N)) (hs0_3 (⟨8 * q, hb⟩ : Fin cfg0.N)) (ms0_4 (⟨8 * q, hb⟩ : Fin cfg0.N)) (hs0_4 (⟨8 * q, hb⟩ : Fin cfg0.N)) (ms0_5 (⟨8 * q, hb⟩ : Fin cfg0.N)) (hs0_5 (⟨8 * q, hb⟩ : Fin cfg0.N)) (ms0_6 (⟨8 * q, hb⟩ : Fin cfg0.N)) (hs0_6 (⟨8 * q, hb⟩ : Fin cfg0.N)) (ms0_7 (⟨8 * q, hb⟩ : Fin cfg0.N)) (hs0_7 (⟨8 * q, hb⟩ : Fin cfg0.N)) scM0_0 (Memref.isWhole_whole _) scM0_1 (Memref.isWhole_whole _) ((hcond0_0 (⟨8 * q, hb⟩ : Fin cfg0.N)).mpr h0) (fun h => h1 ((hcond0_1 (⟨8 * q, hb⟩ : Fin cfg0.N)).mp h)) (iblk m c 0 (⟨8 * q, hb⟩ : Fin cfg0.N)) (iblk m c 1 (⟨8 * q, hb⟩ : Fin cfg0.N)) (iblk m c 2 (⟨8 * q, hb⟩ : Fin cfg0.N)) (iblk m c 3 (⟨8 * q, hb⟩ : Fin cfg0.N)) (iblk m c 4 (⟨8 * q, hb⟩ : Fin cfg0.N)) (iblk m c 5 (⟨8 * q, hb⟩ : Fin cfg0.N)) (iblk m c 6 (⟨8 * q, hb⟩ : Fin cfg0.N))) (ix2 r n')).trans ?_
    refine (Payloads.acc1_update_apply (iblk m c 0 (⟨8 * q, hb⟩ : Fin cfg0.N)) (iblk m c 1 (⟨8 * q, hb⟩ : Fin cfg0.N)) (k0_pay1 (F := Ideal)) r n').trans ?_
    rw [Payloads.reset_apply]
    exact congrArg ((0 : EReal) + ·) (block_products_acc1 m c (⟨8 * q, hb⟩ : Fin cfg0.N) r n')
  · intro n hn acc i hlo hhi
    have h0 : ¬n % 8 = 0 := by omega
    have h1 : ¬n % 8 = 7 := by omega
    obtain ⟨r, n', rfl⟩ : ∃ (r n' : Fin 256), i = ix2 r n' := ⟨i 0, i 1, eq_ix2 i⟩
    unfold scAt0_0
    rw [dif_neg h0, dif_neg h1]
    refine (congrFun (Pieces.acc1_step (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) scM0_0 (Memref.isWhole_whole _) scM0_1 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) acc (outsAt0 m c ((⟨n, hn⟩ : Fin cfg0.N).val - 1) (Nat.lt_of_le_of_lt (Nat.sub_le _ _) (⟨n, hn⟩ : Fin cfg0.N).isLt)).2.2) (ix2 r n')).trans ?_
    refine (Payloads.acc1_update_apply (iblk m c 0 (⟨n, hn⟩ : Fin cfg0.N)) (iblk m c 1 (⟨n, hn⟩ : Fin cfg0.N)) acc r n').trans ?_
    exact congrArg (acc (ix2 r n') + ·) (block_products_acc1 m c (⟨n, hn⟩ : Fin cfg0.N) r n')

theorem acc1_fold_at (c : Dev nD) (q b j : ℕ) (hb : b = 8 * q) (hj : j = 6) (h : b + j < cfg0.N) (i : S256x256.Idx) :
    Pipeline.accAt (fun n h => scAt0_0 m c n h (VS0_0.read (Elt Ideal) VS0_0.junk)) (scAt0_0 m c) b j h i
      = (0 : EReal) + ∑ s ∈ Finset.range 7, addend (V m c main_v3) (V m c main_arg2) (8 * q + s) i := by
  subst hb hj
  exact acc1_fold m c q 6 le_rfl h i

/-- The first accumulator after point n = 8 q + 6, the point before a run's last: zero plus the addends of its first seven points. -/
theorem acc1_before_last (c : Dev nD) (n : ℕ) (hn : n < cfg0.N) (q : ℕ) (hq : n = 8 * q + 6) (i : S256x256.Idx) :
    (outsAt0 m c n hn).2.1 i
      = (0 : EReal) + ∑ s ∈ Finset.range 7, addend (V m c main_v3) (V m c main_arg2) (8 * q + s) i := by
  refine (congrFun (soutsAt0_0_eq m c (⟨n, hn⟩ : Fin cfg0.N)) i).trans ?_
  have e1 : 8 * (n / 8) = 8 * q := by omega
  have e2 : n % 8 = 6 := by omega
  exact acc1_fold_at m c q _ _ e1 e2 _ i

/-- The products of point t's blocks at entry (r, n) are point t's addend: the flattened memory's block against the gate's weight matrix's block. -/
theorem block_products_accg (c : Dev nD) (t : Fin cfg0.N) (r n : Fin 256) :
    ∑ j : Fin 4096, flatBlk m c t (ix2 r j) * wgBlk m c t (ix2 j n)
      = addend (V m c main_v3) (V m c main_arg4) t.val (ix2 r n) := by
  unfold addend blockSum
  refine Finset.sum_congr rfl fun j _ => ?_
  unfold flatBlk wgBlk
  rw [Blocks.flat_block_apply, Blocks.wg_block_apply]
  have hq : (t.val / 8) % 2 = t.val / 8 :=
    Nat.mod_eq_of_lt (by have := t.isLt; have := Blocks.N16; omega)
  refine congrArg₂ (· * ·) (congrArg (V m c main_v3) ?_) (congrArg (V m c main_arg4) ?_)
  · funext a
    apply Fin.ext
    match a with
    | ⟨0, _⟩ => show 256 * (t.val / 8) + r.val = 256 * ((t.val / 8) % 2) + r.val; rw [hq]
    | ⟨1, _⟩ => rfl
  · funext a
    apply Fin.ext
    match a with
    | ⟨0, _⟩ => rfl
    | ⟨1, _⟩ => rfl

/-- The gate accumulator after j further points of the run that starts at point 8 q (j at most 6): zero plus the
    addends of points 8 q … 8 q + j. The first point resets to zero and adds its block; each later one adds its block. -/
theorem accg_fold (c : Dev nD) (q j : ℕ) (hj : j ≤ 6) (h : 8 * q + j < cfg0.N) (i : S256x256.Idx) :
    Pipeline.accAt (fun n h => scAt0_1 m c n h (VS0_1.read (Elt Ideal) VS0_1.junk)) (scAt0_1 m c) (8 * q) j h i
      = (0 : EReal) + ∑ s ∈ Finset.range (j + 1), addend (V m c main_v3) (V m c main_arg4) (8 * q + s) i := by
  refine Pipeline.accAt_add_apply (ι := S256x256.Idx) (β := EReal)
    (fun n h => scAt0_1 m c n h (VS0_1.read (Elt Ideal) VS0_1.junk)) (scAt0_1 m c) (fun _ => 0)
    (addend (V m c main_v3) (V m c main_arg4)) (8 * q) 6 ?_ ?_ j hj h i
  · intro hb i
    have h0 : (8 * q) % 8 = 0 := Nat.mul_mod_right 8 q
    have h1 : ¬(8 * q) % 8 = 7 := by omega
    obtain ⟨r, n', rfl⟩ : ∃ (r n' : Fin 256), i = ix2 r n' := ⟨i 0, i 1, eq_ix2 i⟩
    show scAt0_1 m c (8 * q) hb (VS0_1.read (Elt Ideal) VS0_1.junk) (ix2 r n') = _
    unfold scAt0_1
    rw [dif_pos h0, dif_neg h1]
    refine (congrFun (Pieces.accg_reset (F := Ideal) c (grid0.coords (⟨8 * q, hb⟩ : Fin cfg0.N)) (ms0_0 (⟨8 * q, hb⟩ : Fin cfg0.N)) (hs0_0 (⟨8 * q, hb⟩ : Fin cfg0.N)) (ms0_1 (⟨8 * q, hb⟩ : Fin cfg0.N)) (hs0_1 (⟨8 * q, hb⟩ : Fin cfg0.N)) (ms0_2 (⟨8 * q, hb⟩ : Fin cfg0.N)) (hs0_2 (⟨8 * q, hb⟩ : Fin cfg0.N)) (ms0_3 (⟨8 * q, hb⟩ : Fin cfg0.N)) (hs0_3 (⟨8 * q, hb⟩ : Fin cfg0.N)) (ms0_4 (⟨8 * q, hb⟩ : Fin cfg0.N)) (hs0_4 (⟨8 * q, hb⟩ : Fin cfg0.N)) (ms0_5 (⟨8 * q, hb⟩ : Fin cfg0.N)) (hs0_5 (⟨8 * q, hb⟩ : Fin cfg0.N)) (ms0_6 (⟨8 * q, hb⟩ : Fin cfg0.N)) (hs0_6 (⟨8 * q, hb⟩ : Fin cfg0.N)) (ms0_7 (⟨8 * q, hb⟩ : Fin cfg0.N)) (hs0_7 (⟨8 * q, hb⟩ : Fin cfg0.N)) scM0_0 (Memref.isWhole_whole _) scM0_1 (Memref.isWhole_whole _) ((hcond0_0 (⟨8 * q, hb⟩ : Fin cfg0.N)).mpr h0) (fun h => h1 ((hcond0_1 (⟨8 * q, hb⟩ : Fin cfg0.N)).mp h)) (iblk m c 0 (⟨8 * q, hb⟩ : Fin cfg0.N)) (iblk m c 1 (⟨8 * q, hb⟩ : Fin cfg0.N)) (iblk m c 2 (⟨8 * q, hb⟩ : Fin cfg0.N)) (iblk m c 3 (⟨8 * q, hb⟩ : Fin cfg0.N)) (iblk m c 4 (⟨8 * q, hb⟩ : Fin cfg0.N)) (iblk m c 5 (⟨8 * q, hb⟩ : Fin cfg0.N)) (iblk m c 6 (⟨8 * q, hb⟩ : Fin cfg0.N))) (ix2 r n')).trans ?_
    refine (Payloads.accg_update_apply (iblk m c 0 (⟨8 * q, hb⟩ : Fin cfg0.N)) (iblk m c 2 (⟨8 * q, hb⟩ : Fin cfg0.N)) (k0_pay2 (F := Ideal)) r n').trans ?_
    rw [Payloads.reset_eq, Payloads.reset_apply]
    exact congrArg ((0 : EReal) + ·) (block_products_accg m c (⟨8 * q, hb⟩ : Fin cfg0.N) r n')
  · intro n hn acc i hlo hhi
    have h0 : ¬n % 8 = 0 := by omega
    have h1 : ¬n % 8 = 7 := by omega
    obtain ⟨r, n', rfl⟩ : ∃ (r n' : Fin 256), i = ix2 r n' := ⟨i 0, i 1, eq_ix2 i⟩
    unfold scAt0_1
    rw [dif_neg h0, dif_neg h1]
    refine (congrFun (Pieces.accg_step (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) (ms0_7 (⟨n, hn⟩ : Fin cfg0.N)) (hs0_7 (⟨n, hn⟩ : Fin cfg0.N)) scM0_0 (Memref.isWhole_whole _) scM0_1 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) (iblk m c 6 (⟨n, hn⟩ : Fin cfg0.N)) (outsAt0 m c ((⟨n, hn⟩ : Fin cfg0.N).val - 1) (Nat.lt_of_le_of_lt (Nat.sub_le _ _) (⟨n, hn⟩ : Fin cfg0.N).isLt)).2.1 acc) (ix2 r n')).trans ?_
    refine (Payloads.accg_update_apply (iblk m c 0 (⟨n, hn⟩ : Fin cfg0.N)) (iblk m c 2 (⟨n, hn⟩ : Fin cfg0.N)) acc r n').trans ?_
    exact congrArg (acc (ix2 r n') + ·) (block_products_accg m c (⟨n, hn⟩ : Fin cfg0.N) r n')

theorem accg_fold_at (c : Dev nD) (q b j : ℕ) (hb : b = 8 * q) (hj : j = 6) (h : b + j < cfg0.N) (i : S256x256.Idx) :
    Pipeline.accAt (fun n h => scAt0_1 m c n h (VS0_1.read (Elt Ideal) VS0_1.junk)) (scAt0_1 m c) b j h i
      = (0 : EReal) + ∑ s ∈ Finset.range 7, addend (V m c main_v3) (V m c main_arg4) (8 * q + s) i := by
  subst hb hj
  exact accg_fold m c q 6 le_rfl h i

/-- The gate accumulator after point n = 8 q + 6, the point before a run's last: zero plus the addends of its first seven points. -/
theorem accg_before_last (c : Dev nD) (n : ℕ) (hn : n < cfg0.N) (q : ℕ) (hq : n = 8 * q + 6) (i : S256x256.Idx) :
    (outsAt0 m c n hn).2.2 i
      = (0 : EReal) + ∑ s ∈ Finset.range 7, addend (V m c main_v3) (V m c main_arg4) (8 * q + s) i := by
  refine (congrFun (soutsAt0_1_eq m c (⟨n, hn⟩ : Fin cfg0.N)) i).trans ?_
  have e1 : 8 * (n / 8) = 8 * q := by omega
  have e2 : n % 8 = 6 := by omega
  exact accg_fold_at m c q _ _ e1 e2 _ i

end Cert.GatedMlp.Accumulate

end
-- ==== Proof.KernelResult.lean ====
/-
  The kernel's result array, as one function of what the region finds.

  The output block of row block q is written once, at the last of the eight points of its run. There
  each accumulator holds the seven earlier blocks' products and adds the eighth, which by the
  block-sum law is the whole contraction over 32768 positions; the body then adds the biases, forms
  tanh times logistic, multiplies by the second-layer matrix and adds its bias: the specification's
  three layers at row 256 q + r. The two flushing points' blocks (rows 0 … 255 and 256 … 511) cover
  the array.
-/
import proofs.«170201_j40699110097066_1_alg».proof.Proof.KernelAccumulate

noncomputable section

open scoped BigOperators

namespace Cert.GatedMlp.Result

open Cert.KernelIdeal Cert.KernelIdeal.Gen Cert.KernelIdeal.Value Idealize.ShloMosaic Idealize.ShloMosaic.TcCoe
open Idealize.ShloMosaic.ValueIdx Idealize.SL.Sem Cert.GatedMlp Cert.GatedMlp.Accumulate
open Idealize.ShloMosaic.Pipeline (Dat)

variable (m : (ℓ : Loc nD τ sig) → Buf (Elt Ideal) ℓ) (ρ : Dev nD → PrngReg)

/-- The remaining staged blocks at their literal shapes: the two first-layer biases and the last one as
    one row of 256, and the second-layer matrix whole. -/
abbrev b1Blk (c : Dev nD) (t : Fin cfg0.N) : Vec Ideal S1x256 .f32 := iblk m c 3 t
abbrev bgBlk (c : Dev nD) (t : Fin cfg0.N) : Vec Ideal S1x256 .f32 := iblk m c 4 t
abbrev w2Blk (c : Dev nD) (t : Fin cfg0.N) : Vec Ideal S256x256 .f32 := iblk m c 5 t
abbrev b2Blk (c : Dev nD) (t : Fin cfg0.N) : Vec Ideal S1x256 .f32 := iblk m c 6 t

/-- The result in terms of the flattened memory the region finds and the argument arrays. -/
def found (c : Dev nD) : S512x256.Idx → EReal :=
  resultOfFlat (V m c main_v3) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7))

/-- The addend of point 8 q + s at entry (r, n) is block s of the contraction for row 256 q + r. -/
theorem addend_at (flat : S512x32768.Idx → EReal) (W : S32768x256.Idx → EReal) (q s : ℕ) (hq : q < 2) (hs : s < 8)
    (r n : Fin 256) (R : Fin 512) (hR : R.val = 256 * q + r.val) :
    addend flat W (8 * q + s) (ix2 r n)
      = blockSum (fun k => flat (ix2 R k) * W (ix2 k n)) s := by
  unfold addend blockSum
  refine Finset.sum_congr rfl fun j _ => ?_
  refine congrArg₂ (· * ·) (congrArg flat ?_) (congrArg W ?_)
  · funext a
    apply Fin.ext
    match a with
    | ⟨0, _⟩ => show 256 * (((8 * q + s) / 8) % 2) + r.val = R.val; rw [hR]; omega
    | ⟨1, _⟩ => show 4096 * ((8 * q + s) % 8) + j.val = 4096 * (s % 8) + j.val; omega
  · funext a
    apply Fin.ext
    match a with
    | ⟨0, _⟩ => show 4096 * ((8 * q + s) % 8) + j.val = 4096 * (s % 8) + j.val; omega
    | ⟨1, _⟩ => rfl

/-- A pre-activation with its contraction split as the first seven blocks and the eighth. -/
theorem pre_eq_blocks (flat : SFlat.Idx → EReal) (W : SWide.Idx → EReal) (b : SBias.Idx → EReal) (i : SRow.Idx) :
    pre flat W b i
      = (((0 : EReal) + ∑ s ∈ Finset.range 7,
            blockSum (fun k => flat (ix2 (⟨(i 0).val, (i 0).isLt⟩ : Fin 512) k) * W (ix2 k (⟨(i 1).val, (i 1).isLt⟩ : Fin 256))) s)
          + blockSum (fun k => flat (ix2 (⟨(i 0).val, (i 0).isLt⟩ : Fin 512) k) * W (ix2 k (⟨(i 1).val, (i 1).isLt⟩ : Fin 256))) 7)
        + b (ix1 (⟨(i 1).val, (i 1).isLt⟩ : Fin 256)) := by
  unfold pre
  rw [zero_add, ← sum_blockSum]
  exact congrArg (· + b (ix1 (⟨(i 1).val, (i 1).isLt⟩ : Fin 256))) (Finset.sum_range_succ _ 7)

/-- At the last point of a row block, the first accumulator after its own update, plus the bias: the whole
    pre-activation of row 256 (t / 8) + r, column n. Seven blocks come from the points before, the eighth from this one. -/
theorem pre1_entry (c : Dev nD) (t : Fin cfg0.N) (h7 : t.val % 8 = 7) (r n : Fin 256) :
    k0_pay4 (F := Ideal) (flatBlk m c t) (w1Blk m c t) (outsAt0 m c (t.val - 1) (Nat.lt_of_le_of_lt (Nat.sub_le _ _) t.isLt)).2.1 (ix2 r n) + b1Blk m c t (ix2 (0 : Fin 1) n)
      = pre (V m c main_v3) (m ((c : Thread nD τ).loc main_arg2)) (m ((c : Thread nD τ).loc main_arg3)) (ix2 (⟨256 * (t.val / 8) + r.val, by have := t.isLt; have := Blocks.N16; omega⟩ : Fin 512) n) := by
  have hN := Blocks.N16
  have hlt := t.isLt
  rw [pre_eq_blocks]
  refine congrArg₂ (· + ·) ?_ ?_
  · refine (Payloads.acc1_update_apply (flatBlk m c t) (w1Blk m c t) (outsAt0 m c (t.val - 1) (Nat.lt_of_le_of_lt (Nat.sub_le _ _) t.isLt)).2.1 r n).trans ?_
    rw [Accumulate.acc1_before_last m c (t.val - 1) (Nat.lt_of_le_of_lt (Nat.sub_le _ _) t.isLt) (t.val / 8) (by omega) (ix2 r n)]
    rw [show (∑ j : Fin 4096, flatBlk m c t (ix2 r j) * w1Blk m c t (ix2 j n)) = _ from Accumulate.block_products_acc1 m c t r n]
    rw [V_main_arg2 m c]
    refine congrArg₂ (· + ·) (congrArg ((0 : EReal) + ·) (Finset.sum_congr rfl fun s hs => ?_)) ?_
    · have hs8 : s < 8 := by have := Finset.mem_range.mp hs; omega
      exact addend_at (V m c main_v3) (m ((c : Thread nD τ).loc main_arg2)) (t.val / 8) s (by omega) hs8 r n _ rfl
    · have e := addend_at (V m c main_v3) (m ((c : Thread nD τ).loc main_arg2)) (t.val / 8) 7 (by omega) (by norm_num) r n (⟨256 * (t.val / 8) + r.val, by have := t.isLt; have := Blocks.N16; omega⟩ : Fin 512) rfl
      rw [show 8 * (t.val / 8) + 7 = t.val by omega] at e
      exact e
  · rw [show b1Blk m c t = iblk m c 3 t from rfl, Blocks.b1_block_apply, Blocks.b1_found, Blocks.bias_row_apply]

/-- At the last point of a row block, the gate accumulator after its own update, plus the bias: the whole
    pre-activation of row 256 (t / 8) + r, column n. Seven blocks come from the points before, the eighth from this one. -/
theorem preg_entry (c : Dev nD) (t : Fin cfg0.N) (h7 : t.val % 8 = 7) (r n : Fin 256) :
    k0_pay5 (F := Ideal) (flatBlk m c t) (wgBlk m c t) (outsAt0 m c (t.val - 1) (Nat.lt_of_le_of_lt (Nat.sub_le _ _) t.isLt)).2.2 (ix2 r n) + bgBlk m c t (ix2 (0 : Fin 1) n)
      = pre (V m c main_v3) (m ((c : Thread nD τ).loc main_arg4)) (m ((c : Thread nD τ).loc main_arg5)) (ix2 (⟨256 * (t.val / 8) + r.val, by have := t.isLt; have := Blocks.N16; omega⟩ : Fin 512) n) := by
  have hN := Blocks.N16
  have hlt := t.isLt
  rw [pre_eq_blocks]
  refine congrArg₂ (· + ·) ?_ ?_
  · refine (Payloads.accg_update_apply (flatBlk m c t) (wgBlk m c t) (outsAt0 m c (t.val - 1) (Nat.lt_of_le_of_lt (Nat.sub_le _ _) t.isLt)).2.2 r n).trans ?_
    rw [Accumulate.accg_before_last m c (t.val - 1) (Nat.lt_of_le_of_lt (Nat.sub_le _ _) t.isLt) (t.val / 8) (by omega) (ix2 r n)]
    rw [show (∑ j : Fin 4096, flatBlk m c t (ix2 r j) * wgBlk m c t (ix2 j n)) = _ from Accumulate.block_products_accg m c t r n]
    rw [V_main_arg4 m c]
    refine congrArg₂ (· + ·) (congrArg ((0 : EReal) + ·) (Finset.sum_congr rfl fun s hs => ?_)) ?_
    · have hs8 : s < 8 := by have := Finset.mem_range.mp hs; omega
      exact addend_at (V m c main_v3) (m ((c : Thread nD τ).loc main_arg4)) (t.val / 8) s (by omega) hs8 r n _ rfl
    · have e := addend_at (V m c main_v3) (m ((c : Thread nD τ).loc main_arg4)) (t.val / 8) 7 (by omega) (by norm_num) r n (⟨256 * (t.val / 8) + r.val, by have := t.isLt; have := Blocks.N16; omega⟩ : Fin 512) rfl
      rw [show 8 * (t.val / 8) + 7 = t.val by omega] at e
      exact e
  · rw [show bgBlk m c t = iblk m c 4 t from rfl, Blocks.bg_block_apply, Blocks.bg_found, Blocks.bias_row_apply]

/-- The output block's entry (r, c') at the last point of a row block is the specification at row 256 (t / 8) + r. -/
theorem out_entry (c : Dev nD) (t : Fin cfg0.N) (h7 : t.val % 8 = 7) (r c' : Fin 256) :
    k0_pay6 (F := Ideal)
        (k0_pay4 (flatBlk m c t) (w1Blk m c t) (outsAt0 m c (t.val - 1) (Nat.lt_of_le_of_lt (Nat.sub_le _ _) t.isLt)).2.1) (b1Blk m c t)
        (k0_pay5 (flatBlk m c t) (wgBlk m c t) (outsAt0 m c (t.val - 1) (Nat.lt_of_le_of_lt (Nat.sub_le _ _) t.isLt)).2.2) (bgBlk m c t) (w2Blk m c t) (b2Blk m c t) (ix2 r c')
      = found m c (ix2 (⟨256 * (t.val / 8) + r.val, by have := t.isLt; have := Blocks.N16; omega⟩ : Fin 512) c') := by
  refine (Payloads.out_block_apply _ _ _ _ _ _ r c').trans ?_
  unfold found resultOfFlat outLayer
  refine congrArg₂ (· + ·) (Finset.sum_congr rfl fun n _ => ?_) ?_
  · refine congrArg₂ (· * ·) ?_ ?_
    · unfold hidden
      exact congrArg₂ (· * ·) (congrArg Ideal.tanh (pre1_entry m c t h7 r n)) (congrArg Ideal.logistic (preg_entry m c t h7 r n))
    · rw [show w2Blk m c t = iblk m c 5 t from rfl, Blocks.w2_block_apply, V_main_arg6]
  · rw [show b2Blk m c t = iblk m c 6 t from rfl, Blocks.b2_block_apply, Blocks.b2_found, Blocks.bias_row_apply]

/-! ## From the flushing points' blocks to the array -/

/-- What a flushing point writes back is its block of the specification. -/
theorem flushed_eq (c : Dev nD) (t : Fin cfg0.N) (hf : (cfg0.win 7).flush t = true) :
    (dats m 0 c).flushed 7 t = ((cfg0.win 7).blk t).view.read (Elt Ideal) (found m c) := by
  have h7 : t.val % 8 = 7 := (flush0_7 t).mp hf
  have h0 : ¬t.val % 8 = 0 := by omega
  rw [flushed7_C m c t h0 h7]
  funext y
  have ey : y = ix2 (⟨(y 0).val, (y 0).isLt⟩ : Fin 256) (⟨(y 1).val, (y 1).isLt⟩ : Fin 256) :=
    funext fun a => by
      match a with
      | ⟨0, _⟩ => rfl
      | ⟨1, _⟩ => rfl
  show out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 y
      = found m c (((cfg0.win 7).blk t).view.emb y)
  have e : ((cfg0.win 7).blk t).view.emb y
      = ix2 (⟨256 * (t.val / 8) + (y 0).val, by have := t.isLt; have := Blocks.N16; have h : (y 0).val < 256 := (y 0).isLt; omega⟩ : Fin 512)
          (⟨(y 1).val, (y 1).isLt⟩ : Fin 256) := by
    funext a
    apply Fin.ext
    match a with
    | ⟨0, _⟩ => show win0_7.index t 0 * 256 + 1 * (y 0).val = 256 * (t.val / 8) + (y 0).val; rw [(Blocks.index_out t).1]; omega
    | ⟨1, _⟩ => show win0_7.index t 1 * 256 + 1 * (y 1).val = (y 1).val; rw [(Blocks.index_out t).2]; omega
  rw [e]
  refine (congrFun (Pieces.out_final (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) y).trans ?_
  rw [ey]
  exact out_entry m c t h7 (⟨(y 0).val, (y 0).isLt⟩ : Fin 256) (⟨(y 1).val, (y 1).isLt⟩ : Fin 256)

/-- An index of the array is in point t's output block iff each coordinate is in the block's range. -/
theorem mem_out_block (t : Fin cfg0.N) (i : S512x256.Idx) :
    i ∈ ((cfg0.win 7).blk t).view.set ↔ ∀ a : Fin 2, win0_7.index t a * S256x256.size a ≤ (i a).val
      ∧ (i a).val < win0_7.index t a * S256x256.size a + S256x256.size a := by
  show i ∈ ((View.whole main_v7).slice (win0_7.rect t)).set ↔ _
  rw [View.set_slice_whole, Rect.mem_set_unit]
  exact Iff.rfl

/-- Row i0 lies in the block the last point of run i0 / 256 writes back. -/
theorem covered (i : S512x256.Idx) :
    ∃ t : Fin cfg0.N, (cfg0.win 7).flush t = true ∧ i ∈ ((cfg0.win 7).blk t).view.set := by
  have hN := Blocks.N16
  have hi0 : (i 0).val < 512 := (i 0).isLt
  have hi1 : (i 1).val < 256 := (i 1).isLt
  let t : Fin cfg0.N := ⟨8 * ((i 0).val / 256) + 7, by omega⟩
  have htv : t.val = 8 * ((i 0).val / 256) + 7 := rfl
  refine ⟨t, (flush0_7 t).mpr (by rw [htv]; omega), ?_⟩
  rw [mem_out_block]
  intro a
  match a with
  | ⟨0, _⟩ =>
    show win0_7.index t 0 * 256 ≤ (i 0).val ∧ (i 0).val < win0_7.index t 0 * 256 + 256
    rw [(Blocks.index_out t).1, htv]; omega
  | ⟨1, _⟩ =>
    show win0_7.index t 1 * 256 ≤ (i 1).val ∧ (i 1).val < win0_7.index t 1 * 256 + 256
    rw [(Blocks.index_out t).2]; omega

/-- The result array after the run. -/
theorem final (c : Dev nD) : (dats m 0 c).arrAt 7 cfg0.N = found m c :=
  (dats m 0 c).arrAt_eq_of_cover 7 (found m c) (fun t hf => flushed_eq m c t hf) covered

/-- The run: the result array at the specification, the eight arguments unchanged. -/
theorem run : θ_run defs (onTc (τ := τ) (main (F := Ideal))) ⟨m, fun _ => 0, ρ⟩ fun r => ∀ c : Dev nD,
      r.2.mem ((c : Thread nD τ).loc main_v7) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.GatedMlp.Result

end
-- ==== Proof.RefLayers.lean ====
/-
  The reference program after the flatten is the gated network of the specification.

  With `flat` the flattened updated memory (the value of the reshape), the reference computes
    flat · W1 + b1   and   flat · Wg + bg          (two contractions over 32768 positions, biases broadcast over rows),
    tanh of the first, and of the second the gate 1 / (1 + exp (−z)), which is the logistic function by definition,
    their product, and that product · W2 + b2      (a contraction over 256 positions).
  Each step is read at an index; the index functions of the contractions and of the broadcasts are the
  coordinate constructors the specification uses.
-/
import proofs.«170201_j40699110097066_1_alg».proof.Proof.Gen.ReferenceIdeal.Read
import proofs.«170201_j40699110097066_1_alg».proof.Proof.GatedSpec

noncomputable section

open scoped BigOperators

namespace Cert.GatedMlp.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The single-precision word 0x3F800000 is the number one. -/
theorem ofBits_one : Ideal.ofBits .f32 0x3F800000#32 = 1 := by
  simp [Ideal.ofBits, Ideal.ieee, -EReal.coe_mul]; norm_num

/-! ## The index functions, as coordinates -/

/-- First contraction, left operand: row `i 0`, position `k`. -/
theorem lidx4 (i : S512x256.Idx) (k : Fin 32768) :
    lidx_main_v4 i k = ix2 (⟨(i 0).val, (i 0).isLt⟩ : Fin 512) k :=
  funext fun a => by match a with | ⟨0, _⟩ => rfl | ⟨1, _⟩ => rfl

/-- First contraction, right operand: position `k`, column `i 1`. -/
theorem ridx4 (i : S512x256.Idx) (k : Fin 32768) :
    ridx_main_v4 i k = ix2 k (⟨(i 1).val, (i 1).isLt⟩ : Fin 256) :=
  funext fun a => by match a with | ⟨0, _⟩ => rfl | ⟨1, _⟩ => rfl

/-- Gate contraction, left operand: row `i 0`, position `k`. -/
theorem lidx9 (i : S512x256.Idx) (k : Fin 32768) :
    lidx_main_v9 i k = ix2 (⟨(i 0).val, (i 0).isLt⟩ : Fin 512) k :=
  funext fun a => by match a with | ⟨0, _⟩ => rfl | ⟨1, _⟩ => rfl

/-- Gate contraction, right operand: position `k`, column `i 1`. -/
theorem ridx9 (i : S512x256.Idx) (k : Fin 32768) :
    ridx_main_v9 i k = ix2 k (⟨(i 1).val, (i 1).isLt⟩ : Fin 256) :=
  funext fun a => by match a with | ⟨0, _⟩ => rfl | ⟨1, _⟩ => rfl

/-- Output contraction, left operand: row `i 0`, hidden unit `n`. -/
theorem lidx20 (i : S512x256.Idx) (n : Fin 256) :
    lidx_main_v20 i n = ix2 (⟨(i 0).val, (i 0).isLt⟩ : Fin 512) n :=
  funext fun a => by match a with | ⟨0, _⟩ => rfl | ⟨1, _⟩ => rfl

/-- Output contraction, right operand: hidden unit `n`, column `i 1`. -/
theorem ridx20 (i : S512x256.Idx) (n : Fin 256) :
    ridx_main_v20 i n = ix2 n (⟨(i 1).val, (i 1).isLt⟩ : Fin 256) :=
  funext fun a => by match a with | ⟨0, _⟩ => rfl | ⟨1, _⟩ => rfl

/-- A bias broadcast over rows is read at the column `i 1` (first bias). -/
theorem bidx6 (i : S512x256.Idx) :
    idx_main_v5 (idx_main_v6 i) = ix1 (⟨(i 1).val, (i 1).isLt⟩ : Fin 256) :=
  funext fun a => by match a with | ⟨0, _⟩ => rfl

/-- A bias broadcast over rows is read at the column `i 1` (gate bias). -/
theorem bidx11 (i : S512x256.Idx) :
    idx_main_v10 (idx_main_v11 i) = ix1 (⟨(i 1).val, (i 1).isLt⟩ : Fin 256) :=
  funext fun a => by match a with | ⟨0, _⟩ => rfl

/-- A bias broadcast over rows is read at the column `i 1` (output bias). -/
theorem bidx22 (i : S512x256.Idx) :
    idx_main_v21 (idx_main_v22 i) = ix1 (⟨(i 1).val, (i 1).isLt⟩ : Fin 256) :=
  funext fun a => by match a with | ⟨0, _⟩ => rfl

/-! ## The layers -/

/-- The tanh branch's pre-activation: flat · W1 + b1. -/
theorem pre1_eq (x0 : (⟨S512x256, .f32⟩ : BufTy).Contents (Elt Ideal)) (x1 : (⟨S512x128x256, .f32⟩ : BufTy).Contents (Elt Ideal))
    (x2 : (⟨S32768x256, .f32⟩ : BufTy).Contents (Elt Ideal)) (x3 : (⟨S256, .f32⟩ : BufTy).Contents (Elt Ideal)) (i : S512x256.Idx) :
    val_main_v7 (F := Ideal) x0 x1 x2 x3 i = pre (val_main_v3 (F := Ideal) x0 x1) x2 x3 i := by
  rw [val_main_v7_apply, val_main_v4_apply, val_main_v6_apply, val_main_v5_apply, bidx6]
  simp only [lidx4, ridx4, Ideal.addf_def]
  rfl

/-- The gate's pre-activation: flat · Wg + bg. -/
theorem preg_eq (x0 : (⟨S512x256, .f32⟩ : BufTy).Contents (Elt Ideal)) (x1 : (⟨S512x128x256, .f32⟩ : BufTy).Contents (Elt Ideal))
    (x4 : (⟨S32768x256, .f32⟩ : BufTy).Contents (Elt Ideal)) (x5 : (⟨S256, .f32⟩ : BufTy).Contents (Elt Ideal)) (i : S512x256.Idx) :
    val_main_v12 (F := Ideal) x0 x1 x4 x5 i = pre (val_main_v3 (F := Ideal) x0 x1) x4 x5 i := by
  rw [val_main_v12_apply, val_main_v9_apply, val_main_v11_apply, val_main_v10_apply, bidx11]
  simp only [lidx9, ridx9, Ideal.addf_def]
  rfl

/-- The gate 1 / (1 + exp (−z)), with both ones the word 0x3F800000, is the logistic function of z. -/
theorem gate_eq (x0 : (⟨S512x256, .f32⟩ : BufTy).Contents (Elt Ideal)) (x1 : (⟨S512x128x256, .f32⟩ : BufTy).Contents (Elt Ideal))
    (x4 : (⟨S32768x256, .f32⟩ : BufTy).Contents (Elt Ideal)) (x5 : (⟨S256, .f32⟩ : BufTy).Contents (Elt Ideal)) (i : S512x256.Idx) :
    val_main_v18 (F := Ideal) x0 x1 x4 x5 i = Ideal.logistic (pre (val_main_v3 (F := Ideal) x0 x1) x4 x5 i) := by
  rw [val_main_v18_apply, val_main_v17_apply, val_main_cst_0_apply, val_main_v16_apply, val_main_v15_apply,
    val_main_cst_apply, val_main_v14_apply, val_main_v13_apply, preg_eq]
  simp only [Ideal.hostDivf_def, Ideal.addf_def, Ideal.hostUnary_exp_def, Ideal.hostNegf_def, Ideal.negf_def,
    Ideal.ofBits_def, ofBits_one]
  rfl

/-- The hidden layer: the tanh branch times the gate. -/
theorem hidden_eq (x0 : (⟨S512x256, .f32⟩ : BufTy).Contents (Elt Ideal)) (x1 : (⟨S512x128x256, .f32⟩ : BufTy).Contents (Elt Ideal))
    (x2 : (⟨S32768x256, .f32⟩ : BufTy).Contents (Elt Ideal)) (x3 : (⟨S256, .f32⟩ : BufTy).Contents (Elt Ideal))
    (x4 : (⟨S32768x256, .f32⟩ : BufTy).Contents (Elt Ideal)) (x5 : (⟨S256, .f32⟩ : BufTy).Contents (Elt Ideal)) (i : S512x256.Idx) :
    val_main_v19 (F := Ideal) x0 x1 x2 x3 x4 x5 i = hidden (val_main_v3 (F := Ideal) x0 x1) x2 x3 x4 x5 i := by
  rw [val_main_v19_apply, val_main_v8_apply, pre1_eq, gate_eq]
  simp only [Ideal.mulf_def, Ideal.hostUnary_tanh_def]
  rfl

/-- Everything after the flatten: the reference's result is the specification's, from the flattened memory. -/
theorem layers_eq (x0 : (⟨S512x256, .f32⟩ : BufTy).Contents (Elt Ideal)) (x1 : (⟨S512x128x256, .f32⟩ : BufTy).Contents (Elt Ideal))
    (x2 : (⟨S32768x256, .f32⟩ : BufTy).Contents (Elt Ideal)) (x3 : (⟨S256, .f32⟩ : BufTy).Contents (Elt Ideal))
    (x4 : (⟨S32768x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    Cert.ReferenceIdeal.Read.val_main_v23 (F := Ideal) x0 x1 x2 x3 x4 x5 x6 x7
      = Cert.GatedMlp.resultOfFlat (Cert.ReferenceIdeal.Read.val_main_v3 (F := Ideal) x0 x1) x2 x3 x4 x5 x6 x7 := by
  funext i
  rw [val_main_v23_apply, val_main_v20_apply, val_main_v22_apply, val_main_v21_apply, bidx22]
  simp only [lidx20, ridx20, hidden_eq, Ideal.addf_def]
  rfl

end Cert.GatedMlp.Ref

end
-- ==== Proof.LibScatterSet.lean ====
/-
  A scatter that SETS its updates, read at one index of the result.

  A scatter whose body returns the update folds "overwrite the result at the place this update
  lands" over all update indices in row-major order. When every update lands inside the operand
  and no two updates land at the same place, the order does not matter: the result at the place
  update `j` lands is update `j`, and the result at a place no update lands is the operand there.
-/
import Idealize.ShloMosaic.PureOps.Ideal

namespace Cert.ScatterSet

open Idealize.ShloMosaic

/-- Overwriting a function at the places `p n` with the values `v n`, for `n` running through a list
    without repeats and `p` injective: at `p n` for `n` in the list the outcome is `v n`; at a place
    that is no `p n` for `n` in the list the outcome is the function one started from. -/
theorem foldl_set_apply {ι κ α : Type} [DecidableEq κ] (p : ι → κ) (v : ι → α) (hp : Function.Injective p) :
    ∀ l : List ι, l.Nodup → ∀ r : κ → α,
      (∀ n ∈ l, l.foldl (fun (r : κ → α) (n : ι) => fun i' => if i' = p n then v n else r i') r (p n) = v n) ∧
      (∀ i, (∀ n ∈ l, p n ≠ i) →
        l.foldl (fun (r : κ → α) (n : ι) => fun i' => if i' = p n then v n else r i') r i = r i) := by
  intro l
  induction l with
  | nil => exact fun _ r => ⟨fun n hn => absurd hn List.not_mem_nil, fun i _ => rfl⟩
  | cons m l ih =>
    intro hnd r
    have hm : m ∉ l := (List.nodup_cons.1 hnd).1
    have hl : l.Nodup := (List.nodup_cons.1 hnd).2
    obtain ⟨ih1, ih2⟩ := ih hl (fun i' => if i' = p m then v m else r i')
    refine ⟨fun n hn => ?_, fun i hi => ?_⟩
    · rw [List.foldl_cons]
      rcases List.mem_cons.1 hn with hnm | hn'
      · -- the head's own place is overwritten by no later step, since later places differ from it
        subst hnm
        rw [ih2 (p n) (fun k hk hkn => hm (hp hkn ▸ hk))]
        exact if_pos rfl
      · exact ih1 n hn'
    · rw [List.foldl_cons, ih2 i (fun n hn => hi n (List.mem_cons_of_mem _ hn))]
      exact if_neg (fun h => hi m List.mem_cons_self h.symm)

variable {s si u : Shape} {α : Type} {w : Nat}

/-- A scatter whose body returns the update, all of whose updates land inside the operand, update
    `j` at `g j`, is the fold that overwrites the place `g j` with update `j`, in row-major order. -/
theorem scatter_set_eq_foldl (d : ScatterDims s si u) (x : s.Idx → α) (idx : IVec si w) (upd : u.Idx → α)
    (g : u.Idx → s.Idx) (hg : ∀ j, d.resultIdx? j idx = some (g j)) :
    Host.scatter d (fun _ b => b) x idx upd =
      (List.finRange u.numel).foldl (fun (r : s.Idx → α) (n : Fin u.numel) => fun i' =>
        if i' = g (u.rowMajor.symm n) then upd (u.rowMajor.symm n) else r i') x := by
  unfold Host.scatter
  refine congrArg (fun f => List.foldl f x (List.finRange u.numel)) ?_
  funext r n
  rw [hg]

/-- A scatter whose body returns the update, all of whose updates land inside the operand at
    pairwise different places (update `j` at `g j`, with `g` injective): the result at `g j` is update `j`. -/
theorem scatter_set_apply_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  rw [scatter_set_eq_foldl d x idx upd g hg]
  have h := (foldl_set_apply (fun n : Fin u.numel => g (u.rowMajor.symm n)) (fun n => upd (u.rowMajor.symm n))
    (hinj.comp u.rowMajor.symm.injective) (List.finRange u.numel) (List.nodup_finRange _) x).1
      (u.rowMajor j) (List.mem_finRange _)
  rw [Equiv.symm_apply_apply] at h
  exact h

/-- The same scatter at an index where no update lands: the result is the operand there. -/
theorem scatter_set_apply_miss (d : ScatterDims s si u) (x : s.Idx → α) (idx : IVec si w) (upd : u.Idx → α)
    (g : u.Idx → s.Idx) (hg : ∀ j, d.resultIdx? j idx = some (g j)) (hinj : Function.Injective g)
    (i : s.Idx) (hi : ∀ j, g j ≠ i) :
    Host.scatter d (fun _ b => b) x idx upd i = x i := by
  rw [scatter_set_eq_foldl d x idx upd g hg]
  exact (foldl_set_apply (fun n : Fin u.numel => g (u.rowMajor.symm n)) (fun n => upd (u.rowMajor.symm n))
    (hinj.comp u.rowMajor.symm.injective) (List.finRange u.numel) (List.nodup_finRange _) x).2 i
      (fun n _ => hi (u.rowMajor.symm n))

end Cert.ScatterSet
-- ==== Proof.RingForms.lean ====
/-
  The ring-buffer update as each of the two programs spells it, shown equal to the one function
  `ringUpdate`. The first program puts the new row in a one-slot array in front of the first 127
  old slots. The second rotates the memory by one slot and then overwrites slot 0 with the new row.
  Both are pure re-indexings, so the element type is arbitrary.
-/
import proofs.«170201_j40699110097066_1_alg».proof.Proof.RingUpdate
import Idealize.ShloMosaic.PureOps.Ideal
import Idealize.ShloMosaic.Lib.ValueIdx
import Idealize.ShloMosaic.Lib.Pipeline.Value
import proofs.«170201_j40699110097066_1_alg».proof.Proof.LibScatterSet

noncomputable section

namespace Cert.GatedMlp

open Idealize.ShloMosaic Idealize.ShloMosaic.ValueIdx

/-- One slot for each of the 512 rows: 512 rows, 1 slot, 256 values. -/
abbrev S1slot : Shape := ⟨3, ![512, 1, 256]⟩
/-- All slots but one: 512 rows, 127 slots, 256 values. -/
abbrev S127slot : Shape := ⟨3, ![512, 127, 256]⟩
/-- The shape of a single start index: one entry. -/
abbrev S1idx : Shape := ⟨1, ![1]⟩
/-- The shape of a scalar. -/
abbrev Sscalar : Shape := ⟨0, ![]⟩

/-- The new row placed as a single slot in front of the first 127 old slots is the ring update:
    slot 0 reads the new row, slot `s + 1` reads old slot `s`. -/
theorem concat_new_row_eq_ringUpdate {α : Type} (x : SRow.Idx → α) (mem : SRing.Idx → α)
    (hb : SRow.BroadcastsInDim S1slot (![0, 2] : Fin 2 → Fin S1slot.rank))
    (hs : SRing.Slices ![0, 0, 0] S127slot)
    (hc : Shape.Concatenates [S1slot, S127slot] SRing 1) :
    concatenate SRing 1 [⟨S1slot, broadcastInDim S1slot ![0, 2] hb x⟩,
      ⟨S127slot, extractStridedSlice S127slot ![0, 0, 0] mem hs⟩] hc = ringUpdate x mem := by
  funext i
  have h1 : (i 1).val < 128 := (i 1).isLt
  by_cases h0 : (i 1).val = 0
  · -- slot 0 falls in the first piece, which repeats the new row
    rw [ringUpdate_slot_zero x mem i h0]
    refine (concatenate_pair_apply_left (1 : Fin SRing.rank) _ _ hc i rfl
      (ix3 (⟨(i 0).val, (i 0).isLt⟩ : Fin 512) (⟨0, by omega⟩ : Fin 1) (⟨(i 2).val, (i 2).isLt⟩ : Fin 256)) ?_).trans ?_
    · intro b
      match b with
      | ⟨0, _⟩ => rfl
      | ⟨1, _⟩ => exact h0.symm
      | ⟨2, _⟩ => rfl
    · refine broadcastInDim_apply _ hb x _ _ ?_
      intro a
      match a with
      | ⟨0, _⟩ => rfl
      | ⟨1, _⟩ => rfl
  · -- slot s ≥ 1 falls in the second piece at slot s - 1, which is the old memory there
    rw [ringUpdate_slot_succ x mem i h0]
    refine (concatenate_pair_apply_right (1 : Fin SRing.rank) _ _ hc i rfl rfl
      (ix3 (⟨(i 0).val, (i 0).isLt⟩ : Fin 512) (⟨(i 1).val - 1, by omega⟩ : Fin 127) (⟨(i 2).val, (i 2).isLt⟩ : Fin 256)) ?_ ?_).trans ?_
    · intro b hb1
      match b, hb1 with
      | ⟨0, _⟩, _ => rfl
      | ⟨1, _⟩, hb1 => exact absurd rfl hb1
      | ⟨2, _⟩, _ => rfl
    · show (i 1).val - 1 + 1 = (i 1).val
      omega
    · refine extractStridedSlice_apply _ mem hs _ _ ?_
      intro a
      match a with
      | ⟨0, _⟩ => show (i 0).val = 0 + (i 0).val; omega
      | ⟨1, _⟩ => show (i 1).val - 1 = 0 + ((i 1).val - 1); omega
      | ⟨2, _⟩ => show (i 2).val = 0 + (i 2).val; omega

/-- The place in the memory where element `j` of the new row is written: row `j 0`, slot 0,
    position `j 1`. -/
def slotZeroPlace (j : SRow.Idx) : SRing.Idx :=
  ix3 (⟨(j 0).val, (j 0).isLt⟩ : Fin 512) (⟨0, by omega⟩ : Fin 128) (⟨(j 1).val, (j 1).isLt⟩ : Fin 256)

/-- The write starts at offset 0 on every axis: the only start index given is the constant 0,
    and an axis that reads no start index starts at 0 as well. -/
theorem slotZero_start {w : Nat} (sd : ScatterDims SRing S1idx SRow) (idx : IVec S1idx w) (hidx : ∀ k, idx k = 0#w)
    (j : SRow.Idx) (a : Fin SRing.rank) : sd.start j idx a = 0 := by
  unfold ScatterDims.start
  split
  · rw [hidx]; exact BitVec.toInt_zero
  · rfl

/-- On the row axis (axis 0 of the memory, the first axis that is not inserted) the written window
    runs with the first coordinate of the new row's index. -/
theorem slotZero_window_row (sd : ScatterDims SRing S1idx SRow) (hu : sd.updateWindowDims = [0, 1]) (hi : sd.insertedWindowDims = [1])
    (j : SRow.Idx) (a : Fin SRing.rank) (ha : a.val = 0) : sd.window j a = (j 0).val := by
  obtain rfl : a = 0 := Fin.ext ha
  obtain ⟨uw, iw, sdo, iv, wf⟩ := sd
  dsimp only at hu hi
  subst hu hi
  unfold ScatterDims.window
  split
  · rfl
  · next h => exact absurd (show (0 : Fin SRing.rank) ∈ SRing.kept [(1 : Fin SRing.rank)] by decide) h

/-- The slot axis (axis 1 of the memory) is the inserted one: the window has no extent there. -/
theorem slotZero_window_slot (sd : ScatterDims SRing S1idx SRow) (hi : sd.insertedWindowDims = [1])
    (j : SRow.Idx) (a : Fin SRing.rank) (ha : a.val = 1) : sd.window j a = 0 := by
  obtain rfl : a = 1 := Fin.ext ha
  obtain ⟨uw, iw, sdo, iv, wf⟩ := sd
  dsimp only at hi
  subst hi
  unfold ScatterDims.window
  split
  · next h => exact absurd h (show ¬ (1 : Fin SRing.rank) ∈ SRing.kept [(1 : Fin SRing.rank)] by decide)
  · rfl

/-- On the last axis of the memory (the second axis that is not inserted) the written window runs
    with the second coordinate of the new row's index. -/
theorem slotZero_window_col (sd : ScatterDims SRing S1idx SRow) (hu : sd.updateWindowDims = [0, 1]) (hi : sd.insertedWindowDims = [1])
    (j : SRow.Idx) (a : Fin SRing.rank) (ha : a.val = 2) : sd.window j a = (j 1).val := by
  obtain rfl : a = 2 := Fin.ext ha
  obtain ⟨uw, iw, sdo, iv, wf⟩ := sd
  dsimp only at hu hi
  subst hu hi
  unfold ScatterDims.window
  split
  · rfl
  · next h => exact absurd (show (2 : Fin SRing.rank) ∈ SRing.kept [(1 : Fin SRing.rank)] by decide) h

/-- With these dimension numbers and the start index 0, element `j` of the new row is written at
    `slotZeroPlace j`, which is always inside the memory: start plus window coordinate on each axis. -/
theorem slotZero_resultIdx {w : Nat} (sd : ScatterDims SRing S1idx SRow)
    (hu : sd.updateWindowDims = [0, 1]) (hi : sd.insertedWindowDims = [1])
    (idx : IVec S1idx w) (hidx : ∀ k, idx k = 0#w) (j : SRow.Idx) :
    sd.resultIdx? j idx = some (slotZeroPlace j) := by
  have hst := slotZero_start sd idx hidx j
  have h0 := slotZero_window_row sd hu hi j
  have h1 := slotZero_window_slot sd hi j
  have h2 := slotZero_window_col sd hu hi j
  have hj0 : (j 0).val < 512 := (j 0).isLt
  have hj1 : (j 1).val < 256 := (j 1).isLt
  have hin : ∀ a : Fin SRing.rank, 0 ≤ sd.start j idx a + (sd.window j a : Int) ∧
      sd.start j idx a + (sd.window j a : Int) < (SRing.size a : Int) := by
    intro a
    rw [hst a]
    match a with
    | ⟨0, h⟩ => rw [h0 ⟨0, h⟩ rfl]; show _ ∧ _ < ((512 : Nat) : Int); omega
    | ⟨1, h⟩ => rw [h1 ⟨1, h⟩ rfl]; show _ ∧ _ < ((128 : Nat) : Int); omega
    | ⟨2, h⟩ => rw [h2 ⟨2, h⟩ rfl]; show _ ∧ _ < ((256 : Nat) : Int); omega
  unfold ScatterDims.resultIdx?
  split
  · congr 1
    funext a
    apply Fin.ext
    show (sd.start j idx a + (sd.window j a : Int)).toNat = (slotZeroPlace j a).val
    rw [hst a]
    match a with
    | ⟨0, h⟩ => rw [h0 ⟨0, h⟩ rfl]; show _ = (j 0).val; omega
    | ⟨1, h⟩ => rw [h1 ⟨1, h⟩ rfl]; show _ = 0; omega
    | ⟨2, h⟩ => rw [h2 ⟨2, h⟩ rfl]; show _ = (j 1).val; omega
  · next h => exact absurd hin h

/-- Different elements of the new row are written at different places: the place keeps both
    coordinates. -/
theorem slotZeroPlace_injective : Function.Injective slotZeroPlace := by
  intro j j' h
  have e0 : ((slotZeroPlace j) 0).val = ((slotZeroPlace j') 0).val := by rw [h]
  have e2 : ((slotZeroPlace j) 2).val = ((slotZeroPlace j') 2).val := by rw [h]
  funext a
  match a with
  | ⟨0, _⟩ => exact Fin.ext e0
  | ⟨1, _⟩ => exact Fin.ext e2

/-- The memory rotated by one slot (the last old slot in front of the first 127), with slot 0 then
    overwritten by the new row, is the ring update: slot 0 reads the new row; a slot `s ≥ 1` is not
    written, and in the rotated memory it is the old slot `s - 1`. -/
theorem roll_then_set_eq_ringUpdate {α : Type} (x : SRow.Idx → α) (mem : SRing.Idx → α)
    (sd : ScatterDims SRing S1idx SRow)
    (hu : sd.updateWindowDims = [0, 1]) (hi : sd.insertedWindowDims = [1])
    (hsd : sd.scatterDimsToOperandDims = [1]) (hiv : sd.indexVectorDim = 0)
    (hs1 : SRing.Slices ![0, 127, 0] S1slot) (hs2 : SRing.Slices ![0, 0, 0] S127slot)
    (hc : Shape.Concatenates [S1slot, S127slot] SRing 1)
    (hbc : Sscalar.BroadcastsInDim S1idx (![] : Fin 0 → Fin S1idx.rank)) :
    Host.scatter sd (fun _ b => b)
      (concatenate SRing 1 [⟨S1slot, extractStridedSlice S1slot ![0, 127, 0] mem hs1⟩,
        ⟨S127slot, extractStridedSlice S127slot ![0, 0, 0] mem hs2⟩] hc)
      (broadcastInDim S1idx ![] hbc (constantI Sscalar 32 0#32)) x = ringUpdate x mem := by
  have hidx : ∀ k, (broadcastInDim S1idx ![] hbc (constantI Sscalar 32 0#32)) k = 0#32 := fun _ => rfl
  have hg := slotZero_resultIdx sd hu hi _ hidx
  funext i
  have h1 : (i 1).val < 128 := (i 1).isLt
  by_cases h0 : (i 1).val = 0
  · -- slot 0 is the place where element (row, position) of the new row is written
    rw [ringUpdate_slot_zero x mem i h0]
    have hi' : i = slotZeroPlace (ix2 (⟨(i 0).val, (i 0).isLt⟩ : Fin 512) (⟨(i 2).val, (i 2).isLt⟩ : Fin 256)) := by
      funext a
      match a with
      | ⟨0, _⟩ => rfl
      | ⟨1, _⟩ => exact Fin.ext h0
      | ⟨2, _⟩ => rfl
    exact (congrArg (Host.scatter sd (fun _ b => b) _ _ x) hi').trans
      (Cert.ScatterSet.scatter_set_apply_hit sd _ _ x slotZeroPlace hg slotZeroPlace_injective _)
  · -- a slot s ≥ 1 is written by no element; the rotated memory there is the second piece at s - 1
    rw [ringUpdate_slot_succ x mem i h0]
    refine (Cert.ScatterSet.scatter_set_apply_miss sd _ _ x slotZeroPlace hg slotZeroPlace_injective i ?_).trans ?_
    · intro j hji
      exact h0 (by rw [← hji]; rfl)
    refine (concatenate_pair_apply_right (1 : Fin SRing.rank) _ _ hc i rfl rfl
      (ix3 (⟨(i 0).val, (i 0).isLt⟩ : Fin 512) (⟨(i 1).val - 1, by omega⟩ : Fin 127) (⟨(i 2).val, (i 2).isLt⟩ : Fin 256)) ?_ ?_).trans ?_
    · intro b hb1
      match b, hb1 with
      | ⟨0, _⟩, _ => rfl
      | ⟨1, _⟩, hb1 => exact absurd rfl hb1
      | ⟨2, _⟩, _ => rfl
    · show (i 1).val - 1 + 1 = (i 1).val
      omega
    · refine extractStridedSlice_apply _ mem hs2 _ _ ?_
      intro a
      match a with
      | ⟨0, _⟩ => show (i 0).val = 0 + (i 0).val; omega
      | ⟨1, _⟩ => show (i 1).val - 1 = 0 + ((i 1).val - 1); omega
      | ⟨2, _⟩ => show (i 2).val = 0 + (i 2).val; omega

end Cert.GatedMlp

end
-- ==== Proof.RefValue.lean ====
/-
  The reference's whole result is the specification.

  Its first operations rotate the memory by one slot and overwrite slot 0 with the new row, which is
  the ring update; the flatten is the same operation as in the specification; and the layers after it
  are the specification's three layers.
-/
import proofs.«170201_j40699110097066_1_alg».proof.Proof.RefLayers
import proofs.«170201_j40699110097066_1_alg».proof.Proof.RingForms

noncomputable section

namespace Cert.GatedMlp.Ref

open Cert.ReferenceIdeal Cert.ReferenceIdeal.Gen Cert.ReferenceIdeal.Read Idealize.ShloMosaic Idealize.ShloMosaic.TcCoe
open Idealize.SL.Sem Idealize.ShloMosaic.StableHlo Idealize.ShloMosaic.ValueIdx Cert.GatedMlp

/-- The reference's flattened memory is the flattened ring update of its first two arguments. -/
theorem flat_eq (x0 : (⟨S512x256, .f32⟩ : BufTy).Contents (Elt Ideal)) (x1 : (⟨S512x128x256, .f32⟩ : BufTy).Contents (Elt Ideal)) :
    val_main_v3 (F := Ideal) x0 x1 = shapeCast SFlat (ringUpdate x0 x1) shapeCasts_S512x128x256_S512x32768 := by
  unfold val_main_v3 val_main_v2 val_main_v0 val_main_v1 val_main_c val_main_call0_v0 val_main_call0_v1
  exact congrArg (fun y => shapeCast SFlat y shapeCasts_S512x128x256_S512x32768)
    (roll_then_set_eq_ringUpdate x0 x1 scatter_S512x128x256_S1_S512x256_01_1_1_0 rfl rfl rfl rfl
      slices_S512x128x256_S512x1x256_0_127_0 slices_S512x128x256_S512x127x256_0_0_0
      concatenates_S512x1x256_S512x127x256_S512x128x256_d1 bcast_S_S1)

/-- The reference's result, as a function of its eight arguments, is the specification. -/
theorem result_eq (x0 : (⟨S512x256, .f32⟩ : BufTy).Contents (Elt Ideal)) (x1 : (⟨S512x128x256, .f32⟩ : BufTy).Contents (Elt Ideal))
    (x2 : (⟨S32768x256, .f32⟩ : BufTy).Contents (Elt Ideal)) (x3 : (⟨S256, .f32⟩ : BufTy).Contents (Elt Ideal))
    (x4 : (⟨S32768x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    val_main_v23 (F := Ideal) x0 x1 x2 x3 x4 x5 x6 x7
      = G shapeCasts_S512x128x256_S512x32768 x0 x1 x2 x3 x4 x5 x6 x7 := by
  rw [layers_eq, flat_eq]
  rfl

end Cert.GatedMlp.Ref

end
-- ==== Proof.lean ====
/-
  A gated MLP over a ring-buffer memory: the kernel against its jnp reference, over the extended reals.

  Both programs first update the memory (512 rows, 128 slots of 256 values): the new row x goes into
  slot 0 and every old slot moves one place up. The kernel spells this as x joined in front of the
  first 127 old slots; the reference rotates the memory by one slot and then overwrites slot 0. Both
  are the one function ringUpdate. Flattened to 512 rows of 32768 values, the memory then passes
  through

    hidden = tanh (flat . W1 + b1) * logistic (flat . Wg + bg),     result = hidden . W2 + b2.

  The reference computes each product as one sum over 32768 positions and spells the logistic gate
  as 1 / (1 + exp (-z)), which is the definition of the logistic function on the extended reals. The
  kernel walks a grid of 2 row blocks by 8 blocks of the contraction: two accumulators are reset at
  the first block of a row block, each point adds its block's 4096 products, and the last point adds
  the biases, applies tanh and the logistic function, multiplies by W2 and adds b2. A change of float
  format is the identity here, and the eight partial sums in order are the whole sum because addition
  of extended reals is commutative and associative; no finiteness of the inputs is used.

  The three frames: the kernel's two are its generated frame at each instance; the reference's is its
  run with the result dropped. The idealization rewrote nothing, so preserves is trivial.
-/
import proofs.«170201_j40699110097066_1_alg».proof.Defs
import proofs.«170201_j40699110097066_1_alg».proof.Proof.Gen.Kernel
import proofs.«170201_j40699110097066_1_alg».proof.Proof.Gen.Kernel.Skeleton
import proofs.«170201_j40699110097066_1_alg».proof.Proof.Gen.Kernel.Launch
import proofs.«170201_j40699110097066_1_alg».proof.Proof.Gen.Kernel.Points
import proofs.«170201_j40699110097066_1_alg».proof.Proof.Gen.Kernel.Frame
import proofs.«170201_j40699110097066_1_alg».proof.Proof.Gen.KernelIdeal
import proofs.«170201_j40699110097066_1_alg».proof.Proof.Gen.KernelIdeal.Skeleton
import proofs.«170201_j40699110097066_1_alg».proof.Proof.Gen.KernelIdeal.Launch
import proofs.«170201_j40699110097066_1_alg».proof.Proof.Gen.KernelIdeal.Points
import proofs.«170201_j40699110097066_1_alg».proof.Proof.Gen.KernelIdeal.Frame
import proofs.«170201_j40699110097066_1_alg».proof.Proof.Gen.ReferenceIdeal
import proofs.«170201_j40699110097066_1_alg».proof.Proof.Gen.Pre_finite_inputs
import proofs.«170201_j40699110097066_1_alg».proof.Proof.Gen.KernelIdeal.Value
import proofs.«170201_j40699110097066_1_alg».proof.Proof.Gen.ReferenceIdeal.Run
import proofs.«170201_j40699110097066_1_alg».proof.Proof.Gen.ReferenceIdeal.Read
import proofs.«170201_j40699110097066_1_alg».proof.Proof.KernelResult
import proofs.«170201_j40699110097066_1_alg».proof.Proof.RefValue
import proofs.«170201_j40699110097066_1_alg».proof.Proof.RingForms
import Idealize.ShloMosaic.Adequacy
import Idealize.ShloMosaic.Init

noncomputable section

namespace Cert.Proof

open Idealize.ShloMosaic Idealize.ShloMosaic.TcCoe Idealize.SL.Sem

/-- The kernel's result in terms of what its region finds is the specification of its eight arguments:
    the flattened memory it finds is the flattened ring update. -/
theorem kernel_result_eq (m : (ℓ : Loc Cert.KernelIdeal.nD Cert.KernelIdeal.τ Cert.KernelIdeal.sig) → Buf (Elt Ideal) ℓ)
    (c : Dev Cert.KernelIdeal.nD) (hflat : Cert.GatedMlp.SRing.ShapeCasts Cert.GatedMlp.SFlat) :
    Cert.GatedMlp.Result.found m c
      = Cert.GatedMlp.G hflat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  unfold Cert.GatedMlp.Result.found Cert.GatedMlp.G
  rw [Cert.GatedMlp.Blocks.flat_found, Cert.GatedMlp.concat_new_row_eq_ringUpdate]

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end at the specification of arguments that agree. -/
theorem algebraic : Cert.algebraic_KernelIdeal_ReferenceIdeal := by
  intro m ρ m' ρ' _ hagree
  refine ⟨fun c => Cert.GatedMlp.Result.found m c, Cert.GatedMlp.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.GatedMlp.Ref.result_eq]
  obtain ⟨a0, a1, a2, a3, a4, a5, a6, a7⟩ := hagree c
  rw [a0, a1, a2, a3, a4, a5, a6, a7]
  exact (kernel_result_eq m c _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
